-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S131072x128 : Shape := ⟨2, ![131072, 128]⟩
abbrev S1x128 : Shape := ⟨2, ![1, 128]⟩
abbrev S2048x128 : Shape := ⟨2, ![2048, 128]⟩
abbrev S1x1 : Shape := ⟨2, ![1, 1]⟩
abbrev S2048 : Shape := ⟨1, ![2048]⟩
abbrev S2048x1 : Shape := ⟨2, ![2048, 1]⟩
abbrev S1 : Shape := ⟨1, ![1]⟩
abbrev S1x123 : Shape := ⟨2, ![1, 123]⟩
abbrev S_ : Shape := ⟨0, ![]⟩

abbrev nBuf : Space → Nat
  | .hbm => 38
  | .vmem => 11
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S131072x128, .f32⟩
  | .hbm, ⟨3, _⟩ => ⟨S131072x128, .f32⟩
  | .hbm, ⟨4, _⟩ => ⟨S1x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v96 : BitVec 1 := Scalar.cmpi .eq arg0 c63_i32
  let v97 : BitVec 32 := Scalar.extui v96
  let c0_i32_47 : BitVec 32 := 0#32
  let v98 : BitVec 1 := Scalar.cmpi .ne v97 c0_i32_47
  v98

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x1x512x512_S131072x128 : S64x1x512x512.ShapeCasts S131072x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  natLt_1_32 : 1 < 32
  iota_S2048x128_d0_w32 : S2048x128.Iotas .tc 32 [0]
  iota_S2048x128_d1_w32 : S2048x128.Iotas .tc 32 [1]
  rotates_S2048x128_d1 : S2048x128.Rotates 1 none
  rotates_S2048x128_d0 : S2048x128.Rotates 0 none
  slices_S2048x128_o0_127_S2048x1 : S2048x128.Slices ![0, 127] S2048x1
  shapeCasts_S2048x1_S2048x1 : S2048x1.ShapeCasts S2048x1
  broadcasts_S2048x1_S2048x128 : S2048x1.Broadcasts S2048x128
  broadcasts_S1x1_S2048x128 : S1x1.Broadcasts S2048x128
  slices_S2048x128_o2047_127_S1x1 : S2048x128.Slices ![2047, 127] S1x1
  inb_S1x128_S1x1_0_0 : ∀ a, (![0, 0] : Fin 2 → Nat) a + S1x1.size a ≤ S1x128.size a
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x123_0_5 : ∀ a, (![0, 5] : Fin 2 → Nat) a + S1x123.size a ≤ S1x128.size a
  h_S1x123 : 0 < S1x123.numel
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  slices_S1x128_S1x1_0_3 : S1x128.Slices ![0, 3] S1x1
  slices_S1x128_S1x1_0_4 : S1x128.Slices ![0, 4] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1x512x512 : Shape := ⟨4, ![64, 1, 512, 512]⟩
abbrev S16777216 : Shape := ⟨1, ![16777216]⟩
abbrev S_ : Shape := ⟨0, ![]⟩
abbrev S1 : Shape := ⟨1, ![1]⟩
abbrev S16777215 : Shape := ⟨1, ![16777215]⟩

abbrev nBuf : Space → Nat
  | .hbm => 65
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S16777216, .f32⟩
  | .hbm, ⟨3, _⟩ => ⟨S16777216, .f32⟩
  | .hbm, ⟨4, _⟩ => ⟨S16777216, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16777216, .f32⟩
  | .hbm, ⟨22, _⟩ => ⟨S_, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S_, .f32⟩
  | .hbm, ⟨32, _⟩ => ⟨S16777216, .f32⟩
  | .hbm, ⟨33, _⟩ => ⟨S16777216, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16777216, .f32⟩
  | .hbm, ⟨43, _⟩ => ⟨S16777216, .i1⟩
  | .hbm, ⟨44, _⟩ => ⟨S1, .i1⟩
  | .hbm, ⟨45, _⟩ => ⟨S16777215, .i1⟩
  | .hbm, ⟨46, _⟩ => ⟨S16777215, .i1⟩
  | .hbm, ⟨47, _⟩ => ⟨S16777215, .i1⟩
  | .hbm, ⟨48, _⟩ => ⟨S16777215, .i1⟩
  | .hbm, ⟨49, _⟩ => ⟨S16777216, .i1⟩
  | .hbm, ⟨50, _⟩ => ⟨S16777216, .i32⟩
  | .hbm, ⟨51, _⟩ => ⟨S_, .i32⟩
  | .hbm, ⟨52, _⟩ => ⟨S_, .i32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_cst_15 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  shapeCasts_S64x1x512x512_S16777216 : S64x1x512x512.ShapeCasts S16777216
  reducesTo_S16777216_S_d0 : S16777216.ReducesTo [0] S_
  h_S_ : 0 < S_.numel
  bcast_S_S16777216 : S_.BroadcastsInDim S16777216 (![] : Fin 0 → Fin S16777216.rank)
  slices_S16777216_S1_0 : S16777216.Slices ![0] S1
  slices_S16777216_S16777215_1 : S16777216.Slices ![1] S16777215
  slices_S16777216_S16777215_0 : S16777216.Slices ![0] S16777215
  concatenates_S1_S16777215_S16777216_d0 : Shape.Concatenates [S1, S16777215] S16777216 0
  natLt_1_32 : 1 < 32

variable [Facts₀]

class Facts : Prop extends Facts₀ where

variable [Facts]
-- ==== Proof.Pieces.lean ====
/-
  What one grid point's body leaves in the six carried 1×1 accumulators and in the output row, as values.

  The body keeps five running totals and one carried flag in 1×1 buffers that live across grid points. At a point
  whose two input blocks are `x` (the predictions) and `t` (the targets), and which finds the accumulators at
  `s0 … s5`, it leaves
    * `s0 + Σ x`, `s1 + Σ t`, `s2 + Σ x·t`, `s3 + Σ bce(x, t)` — the block totals added to what was found;
    * `s4 + Σ starts`, where an element starts a run when it is nonzero and its predecessor in row-major order
      is zero, the predecessor of the block's first element being the carried flag `s5`;
    * the nonzero flag of the block's last element, for the next point.
  At the first grid point the body first stores zero into all six and reads the zeros back, so the same formulas
  hold there with `s0 … s5` all zero. At the last grid point it also copies the five totals into columns 0 … 4 of
  the 1×128 output row. Each statement identifies the contents the body leaves (the covering store's payload,
  read back) with the payload's pure term of the loaded values.
-/
import proofs.«151609_j34668976013761_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Pieces

open Cert.KernelIdeal Cert.KernelIdeal.Gen Idealize.ShloMosaic.ValueIdx

variable {F : FTy → Type} [FloatOps F]

/-- The zero offsets of a rank-2 rectangle, as the constant function. -/
theorem hz : (![0, 0] : Fin 2 → Nat) = fun _ => 0 := funext fun a => by fin_cases a <;> rfl

variable (c : Dev nD) (i : grid0.Coords)
  (a1 : Memref sig .tc .vmem S2048x128 .f32) (h1 : a1.IsWhole) (a2 : Memref sig .tc .vmem S2048x128 .f32) (h2 : a2.IsWhole)
  (a3 : Memref sig .tc .vmem S1x128 .f32) (h3 : a3.IsWhole)
  (a4 : Memref sig .tc .vmem S1x1 .f32) (h4 : a4.IsWhole) (a5 : Memref sig .tc .vmem S1x1 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (x0 x1 : Vec F S2048x128 .f32) (s0 s1 s2 s3 s4 s5 : Vec F S1x1 .f32)

/-- The nonzero flags of a block, as floats 0 / 1. -/
abbrev nzf (x : Vec F S2048x128 .f32) : FVec F S2048x128 .f32 := k0_pay18 (k0_pay11 x)

/-- The total of the run starts of a block added to `s4`, the block's first element taking `s5` as its predecessor's flag. -/
abbrev runAcc (x : Vec F S2048x128 .f32) (s5 s4 : Vec F S1x1 .f32) : FVec F S1x1 .f32 :=
  k0_pay1 (nzf x) k0_pay19 k0_pay20 (k0_pay21 (k0_pay11 x)) (k0_pay22 (k0_pay11 x)) s5 s4

/-! ## A middle grid point (neither first nor last) -/

section Middle
variable (hc0 : ¬cond0_0 i) (hc1 : ¬cond0_1 i)

local notation "accB" k:max => k c i a1 h1 a2 h2 a3 h3 a4 h4 a5 h5 a6 h6 a7 h7 a8 h8 a9 h9 hc0 hc1 x0 x1 s0 s1 s2 s3 s4 s5

theorem mid0 : accB sout0_B_0 = k0_pay13 x0 s0 := by
  unfold sout0_B_0
  rw [View.read_writes_eq_canon _ _ _ (accB scover0_B_0)]
  unfold kernelRun0_B
  dsimp only
  sl_unfold_words
  rw [View.canon_unit_zero hz]
  simp only [View.readAt_eq_ld, h1.read_unread, h4.read_unread, View.ld_unit_zero (S := S2048x128) hz, View.ld_unit_zero (S := S1x1) hz]

theorem mid1 : accB sout0_B_1 = k0_pay14 x1 s1 := by
  unfold sout0_B_1
  rw [View.read_writes_eq_canon _ _ _ (accB scover0_B_1)]
  unfold kernelRun0_B
  dsimp only
  sl_unfold_words
  rw [View.canon_unit_zero hz]
  simp only [View.readAt_eq_ld, h2.read_unread, h5.read_unread, View.ld_unit_zero (S := S2048x128) hz, View.ld_unit_zero (S := S1x1) hz]

theorem mid2 : accB sout0_B_2 = k0_pay16 (k0_pay15 x0 x1 s2) := by
  unfold sout0_B_2
  rw [View.read_writes_eq_canon _ _ _ (accB scover0_B_2)]
  unfold kernelRun0_B
  dsimp only
  sl_unfold_words
  rw [View.canon_unit_zero hz]
  simp only [View.readAt_eq_ld, h1.read_unread, h2.read_unread, h6.read_unread, View.ld_unit_zero (S := S2048x128) hz, View.ld_unit_zero (S := S1x1) hz]

theorem mid3 : accB sout0_B_3 = k0_pay17 (k0_pay11 x0) (k0_pay12 x1) s3 := by
  unfold sout0_B_3
  rw [View.read_writes_eq_canon _ _ _ (accB scover0_B_3)]
  unfold kernelRun0_B
  dsimp only
  sl_unfold_words
  rw [View.canon_unit_zero hz]
  simp only [View.readAt_eq_ld, h1.read_unread, h2.read_unread, h7.read_unread, View.ld_unit_zero (S := S2048x128) hz, View.ld_unit_zero (S := S1x1) hz]

theorem mid4 : accB sout0_B_4 = runAcc x0 s5 s4 := by
  unfold sout0_B_4
  rw [View.read_writes_eq_canon _ _ _ (accB scover0_B_4)]
  unfold kernelRun0_B
  dsimp only
  sl_unfold_words
  rw [View.canon_unit_zero hz]
  simp only [View.readAt_eq_ld, h1.read_unread, h8.read_unread, h9.read_unread, View.ld_unit_zero (S := S2048x128) hz, View.ld_unit_zero (S := S1x1) hz]

theorem mid5 : accB sout0_B_5 = k0_pay2 (nzf x0) := by
  unfold sout0_B_5
  rw [View.read_writes_eq_canon _ _ _ (accB scover0_B_5)]
  unfold kernelRun0_B
  dsimp only
  sl_unfold_words
  rw [View.canon_unit_zero hz]
  simp only [View.readAt_eq_ld, h1.read_unread, View.ld_unit_zero (S := S2048x128) hz]

end Middle

/-! ## The last grid point: the accumulators are updated as at a middle point, then copied to the output row -/

section Last
variable (hc0 : ¬cond0_0 i) (hc1 : cond0_1 i)

local notation "accC" k:max => k c i a1 h1 a2 h2 a3 h3 a4 h4 a5 h5 a6 h6 a7 h7 a8 h8 a9 h9 hc0 hc1 x0 x1 s0 s1 s2 s3 s4 s5

theorem last0 : accC sout0_C_0 = k0_pay13 x0 s0 := by
  unfold sout0_C_0
  rw [View.read_writes_eq_canon _ _ _ (accC scover0_C_0)]
  unfold kernelRun0_C
  dsimp only
  sl_unfold_words
  rw [View.canon_unit_zero hz]
  simp only [View.readAt_eq_ld, h1.read_unread, h4.read_unread, View.ld_unit_zero (S := S2048x128) hz, View.ld_unit_zero (S := S1x1) hz]

theorem last1 : accC sout0_C_1 = k0_pay14 x1 s1 := by
  unfold sout0_C_1
  rw [View.read_writes_eq_canon _ _ _ (accC scover0_C_1)]
  unfold kernelRun0_C
  dsimp only
  sl_unfold_words
  rw [View.canon_unit_zero hz]
  simp only [View.readAt_eq_ld, h2.read_unread, h5.read_unread, View.ld_unit_zero (S := S2048x128) hz, View.ld_unit_zero (S := S1x1) hz]

theorem last2 : accC sout0_C_2 = k0_pay16 (k0_pay15 x0 x1 s2) := by
  unfold sout0_C_2
  rw [View.read_writes_eq_canon _ _ _ (accC scover0_C_2)]
  unfold kernelRun0_C
  dsimp only
  sl_unfold_words
  rw [View.canon_unit_zero hz]
  simp only [View.readAt_eq_ld, h1.read_unread, h2.read_unread, h6.read_unread, View.ld_unit_zero (S := S2048x128) hz, View.ld_unit_zero (S := S1x1) hz]

theorem last3 : accC sout0_C_3 = k0_pay17 (k0_pay11 x0) (k0_pay12 x1) s3 := by
  unfold sout0_C_3
  rw [View.read_writes_eq_canon _ _ _ (accC scover0_C_3)]
  unfold kernelRun0_C
  dsimp only
  sl_unfold_words
  rw [View.canon_unit_zero hz]
  simp only [View.readAt_eq_ld, h1.read_unread, h2.read_unread, h7.read_unread, View.ld_unit_zero (S := S2048x128) hz, View.ld_unit_zero (S := S1x1) hz]

theorem last4 : accC sout0_C_4 = runAcc x0 s5 s4 := by
  unfold sout0_C_4
  rw [View.read_writes_eq_canon _ _ _ (accC scover0_C_4)]
  unfold kernelRun0_C
  dsimp only
  sl_unfold_words
  rw [View.canon_unit_zero hz]
  simp only [View.readAt_eq_ld, h1.read_unread, h8.read_unread, h9.read_unread, View.ld_unit_zero (S := S2048x128) hz, View.ld_unit_zero (S := S1x1) hz]

theorem last5 : accC sout0_C_5 = k0_pay2 (nzf x0) := by
  unfold sout0_C_5
  rw [View.read_writes_eq_canon _ _ _ (accC scover0_C_5)]
  unfold kernelRun0_C
  dsimp only
  sl_unfold_words
  rw [View.canon_unit_zero hz]
  simp only [View.readAt_eq_ld, h1.read_unread, View.ld_unit_zero (S := S2048x128) hz]

/-! ### The output row after the last point: column k holds accumulator k's new value, k = 0 … 4

The row is written by six stores, last first: columns 5 … 127 (zeros), then columns 4, 3, 2, 1, 0. Column k is
outside every store made after its own, so it reads its own store's payload: the accumulator loaded back after
its update. -/

theorem row0 : (accC out0_C_2) (ix2 0 0) = k0_pay13 x0 s0 (ix2 0 0) := by
  unfold out0_C_2
  rw [View.read_writes_eq_canon _ _ _ (accC cover0_C_2)]
  unfold kernelRun0_C
  dsimp only
  sl_unfold_words
  rw [View.canon_cons_of_not_mem _ _ (by rw [Rect.mem_set_unit]; decide), View.canon_cons_of_not_mem _ _ (by rw [Rect.mem_set_unit]; decide),
    View.canon_cons_of_not_mem _ _ (by rw [Rect.mem_set_unit]; decide), View.canon_cons_of_not_mem _ _ (by rw [Rect.mem_set_unit]; decide),
    View.canon_cons_of_not_mem _ _ (by rw [Rect.mem_set_unit]; decide)]
  have e : (ix2 (0 : Fin 1) (0 : Fin 128) : S1x128.Idx)
      = (Rect.unit (s := S1x128) ![0, 0] ![1, 1] inb_S1x128_S1x1_0_0).emb (ix2 (0 : Fin 1) (0 : Fin 1)) := by
    funext a; match a with | ⟨0, _⟩ => rfl | ⟨1, _⟩ => rfl
  rw [e, View.canon_cons_emb, View.readCov_unit_zero (S := S1x1) _ hz]
  simp only [View.readAt_eq_ld, h1.read_unread, h4.read_unread, View.ld_unit_zero (S := S2048x128) hz, View.ld_unit_zero (S := S1x1) hz]

theorem row1 : (accC out0_C_2) (ix2 0 1) = k0_pay14 x1 s1 (ix2 0 0) := by
  unfold out0_C_2
  rw [View.read_writes_eq_canon _ _ _ (accC cover0_C_2)]
  unfold kernelRun0_C
  dsimp only
  sl_unfold_words
  rw [View.canon_cons_of_not_mem _ _ (by rw [Rect.mem_set_unit]; decide), View.canon_cons_of_not_mem _ _ (by rw [Rect.mem_set_unit]; decide),
    View.canon_cons_of_not_mem _ _ (by rw [Rect.mem_set_unit]; decide), View.canon_cons_of_not_mem _ _ (by rw [Rect.mem_set_unit]; decide)]
  have e : (ix2 (0 : Fin 1) (1 : Fin 128) : S1x128.Idx)
      = (Rect.unit (s := S1x128) ![0, 1] ![1, 1] inb_S1x128_S1x1_0_1).emb (ix2 (0 : Fin 1) (0 : Fin 1)) := by
    funext a; match a with | ⟨0, _⟩ => rfl | ⟨1, _⟩ => rfl
  rw [e, View.canon_cons_emb, View.readCov_unit_zero (S := S1x1) _ hz]
  simp only [View.readAt_eq_ld, h2.read_unread, h5.read_unread, View.ld_unit_zero (S := S2048x128) hz, View.ld_unit_zero (S := S1x1) hz]

theorem row2 : (accC out0_C_2) (ix2 0 2) = k0_pay16 (k0_pay15 x0 x1 s2) (ix2 0 0) := by
  unfold out0_C_2
  rw [View.read_writes_eq_canon _ _ _ (accC cover0_C_2)]
  unfold kernelRun0_C
  dsimp only
  sl_unfold_words
  rw [View.canon_cons_of_not_mem _ _ (by rw [Rect.mem_set_unit]; decide), View.canon_cons_of_not_mem _ _ (by rw [Rect.mem_set_unit]; decide),
    View.canon_cons_of_not_mem _ _ (by rw [Rect.mem_set_unit]; decide)]
  have e : (ix2 (0 : Fin 1) (2 : Fin 128) : S1x128.Idx)
      = (Rect.unit (s := S1x128) ![0, 2] ![1, 1] inb_S1x128_S1x1_0_2).emb (ix2 (0 : Fin 1) (0 : Fin 1)) := by
    funext a; match a with | ⟨0, _⟩ => rfl | ⟨1, _⟩ => rfl
  rw [e, View.canon_cons_emb, View.readCov_unit_zero (S := S1x1) _ hz]
  simp only [View.readAt_eq_ld, h1.read_unread, h2.read_unread, h6.read_unread, View.ld_unit_zero (S := S2048x128) hz, View.ld_unit_zero (S := S1x1) hz]

theorem row3 : (accC out0_C_2) (ix2 0 3) = k0_pay17 (k0_pay11 x0) (k0_pay12 x1) s3 (ix2 0 0) := by
  unfold out0_C_2
  rw [View.read_writes_eq_canon _ _ _ (accC cover0_C_2)]
  unfold kernelRun0_C
  dsimp only
  sl_unfold_words
  rw [View.canon_cons_of_not_mem _ _ (by rw [Rect.mem_set_unit]; decide), View.canon_cons_of_not_mem _ _ (by rw [Rect.mem_set_unit]; decide)]
  have e : (ix2 (0 : Fin 1) (3 : Fin 128) : S1x128.Idx)
      = (Rect.unit (s := S1x128) ![0, 3] ![1, 1] inb_S1x128_S1x1_0_3).emb (ix2 (0 : Fin 1) (0 : Fin 1)) := by
    funext a; match a with | ⟨0, _⟩ => rfl | ⟨1, _⟩ => rfl
  rw [e, View.canon_cons_emb, View.readCov_unit_zero (S := S1x1) _ hz]
  simp only [View.readAt_eq_ld, h1.read_unread, h2.read_unread, h7.read_unread, View.ld_unit_zero (S := S2048x128) hz, View.ld_unit_zero (S := S1x1) hz]

theorem row4 : (accC out0_C_2) (ix2 0 4) = runAcc x0 s5 s4 (ix2 0 0) := by
  unfold out0_C_2
  rw [View.read_writes_eq_canon _ _ _ (accC cover0_C_2)]
  unfold kernelRun0_C
  dsimp only
  sl_unfold_words
  rw [View.canon_cons_of_not_mem _ _ (by rw [Rect.mem_set_unit]; decide)]
  have e : (ix2 (0 : Fin 1) (4 : Fin 128) : S1x128.Idx)
      = (Rect.unit (s := S1x128) ![0, 4] ![1, 1] inb_S1x128_S1x1_0_4).emb (ix2 (0 : Fin 1) (0 : Fin 1)) := by
    funext a; match a with | ⟨0, _⟩ => rfl | ⟨1, _⟩ => rfl
  rw [e, View.canon_cons_emb, View.readCov_unit_zero (S := S1x1) _ hz]
  simp only [View.readAt_eq_ld, h1.read_unread, h8.read_unread, h9.read_unread, View.ld_unit_zero (S := S2048x128) hz, View.ld_unit_zero (S := S1x1) hz]

end Last

/-! ## The first grid point: every accumulator is zeroed, read back, then updated -/

section First
variable (hc0 : cond0_0 i) (hc1 : ¬cond0_1 i)

local notation "accA" k:max => k c i a1 h1 a2 h2 a3 h3 a4 h4 a5 h5 a6 h6 a7 h7 a8 h8 a9 h9 hc0 hc1 x0 x1

theorem first0 : accA sout0_A_0 = k0_pay13 x0 (k0_pay5 (F := F)) := by
  unfold sout0_A_0
  rw [View.read_writes_eq_canon _ _ _ (accA scover0_A_0)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S2048x128) hz]

theorem first1 : accA sout0_A_1 = k0_pay14 x1 (k0_pay6 (F := F)) := by
  unfold sout0_A_1
  rw [View.read_writes_eq_canon _ _ _ (accA scover0_A_1)]
  unfold kernelRun0_A
  dsimp only
  sl_unfold_words
  rw [View.canon_cons_unit_zero (S := S1x1) hz, View.readCov_unit_zero (S := S1x1) _ hz]
  simp only [View.readAt_eq_ld, h2.read_unread, View.ld_unit_zero (S := S2048x128) hz]

theorem first2 : accA sout0_A_2 = k0_pay16 (k0_pay15 x0 x1 (k0_pay7 (F := F))) := by
  unfold sout0_A_2
  rw [View.read_writes_eq_canon _ _ _ (accA scover0_A_2)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S2048x128) hz]

theorem first3 : accA sout0_A_3 = k0_pay17 (k0_pay11 x0) (k0_pay12 x1) (k0_pay8 (F := F)) := by
  unfold sout0_A_3
  rw [View.read_writes_eq_canon _ _ _ (accA scover0_A_3)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S2048x128) hz]

theorem first4 : accA sout0_A_4 = runAcc x0 (k0_pay10 (F := F)) (k0_pay9 (F := F)) := by
  unfold sout0_A_4
  rw [View.read_writes_eq_canon _ _ _ (accA scover0_A_4)]
  unfold kernelRun0_A
  dsimp only
  sl_unfold_words
  rw [View.canon_cons_unit_zero (S := S1x1) hz, View.readCov_unit_zero (S := S1x1) _ hz, View.readCov_unit_zero (S := S1x1) _ hz]
  simp only [View.readAt_eq_ld, h1.read_unread, View.ld_unit_zero (S := S2048x128) hz]

theorem first5 : accA sout0_A_5 = k0_pay2 (nzf x0) := by
  unfold sout0_A_5
  rw [View.read_writes_eq_canon _ _ _ (accA scover0_A_5)]
  unfold kernelRun0_A
  dsimp only
  sl_unfold_words
  rw [View.canon_cons_unit_zero (S := S1x1) hz]
  simp only [View.readAt_eq_ld, h1.read_unread, View.ld_unit_zero (S := S2048x128) hz]

end First

end Cert.KernelIdeal.Pieces

end
-- ==== Proof.Spec.lean ====
/-
  The loss both programs compute, as one function of the two input arrays over the extended reals.

  Read an input array f32[64, 1, 512, 512] in row-major order as a flat sequence of N = 16777216 numbers,
  `X 0, X 1, …` for the predictions and `T 0, T 1, …` for the targets. The loss is

      (Σ bce(X p, T p)) / N · ½  +  (1 − (2·Σ X p·T p + 1) / (Σ X p + Σ T p + 1))  +  |runs − 1| / 262144 · 1

  where bce(x, t) = −(t·max(log x, −100) + (1 − t)·max(log(1 + (−x)), −100)) and `runs` counts the maximal runs of
  nonzero predictions: position p starts a run when X p ≠ 0 and either p = 0 or X (p − 1) = 0.
  Every sum is a sum of extended reals starting from 0; the float constants stay the binary words the programs
  print, read at their exact values.
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- The inputs' shape. -/
abbrev SIn : Shape := ⟨4, ![64, 1, 512, 512]⟩
/-- The same entries as one row. -/
abbrev SFlat : Shape := ⟨1, ![16777216]⟩

theorem casts : SIn.ShapeCasts SFlat := by decide

/-- The flat, row-major reading of an input array: entry `n`, and 0 past the end (never consulted). -/
def flat (A : SIn.Idx → EReal) (n : ℕ) : EReal :=
  if h : n < 16777216 then shapeCast SFlat A casts (ix1 ⟨n, h⟩) else 0

/-- The clamp −100 of the two logarithms. -/
def clampLo : EReal := Ideal.ofBits .f32 0xC2C80000#32
/-- The constant 1. -/
def one : EReal := Ideal.ofBits .f32 0x3F800000#32

/-- One element's binary cross-entropy term with both logarithms clamped below. -/
def bce (x t : EReal) : EReal :=
  -(t * max (Ideal.log x) clampLo + (one - t) * max (Ideal.log1p (-x)) clampLo)

/-- 1 when the number is not zero, else 0. -/
def nz (x : EReal) : ℕ := if x ≠ 0 then 1 else 0

/-- The nonzero flag as an extended real, 0 or 1. -/
def nzE (x : EReal) : EReal := ((nz x : ℝ) : EReal)

/-- A 2048×128 block read as a flat row-major sequence of 262144 numbers (0 past the end, never consulted). -/
def blockFlat (x : (⟨2, ![2048, 128]⟩ : Shape).Idx → EReal) (q : ℕ) : EReal :=
  if h : q < 262144 then x (ix2 ⟨q / 128, by omega⟩ ⟨q % 128, Nat.mod_lt _ (by decide)⟩) else 0

/-- 1 when position `p` starts a run of nonzero entries of `X`, else 0. -/
def start (X : ℕ → EReal) (p : ℕ) : ℕ := if p = 0 then nz (X 0) else nz (X p) * (1 - nz (X (p - 1)))

/-- The total of a flat sequence, summed from 0. -/
def total (f : ℕ → EReal) : EReal := 0 + ∑ i : Fin 16777216, f i.val

/-- The number of runs of nonzero entries. -/
def runs (X : ℕ → EReal) : ℕ := ∑ p : Fin 16777216, start X p.val

/-- The closing arithmetic on the five totals: Σx, Σt, Σx·t, Σbce and the run count. -/
def tailE (sx st sxt sb rc : EReal) : EReal :=
  (Ideal.div sb (Ideal.ofBits .f32 0x4B800000#32) * Ideal.ofBits .f32 0x3F000000#32
    + (Ideal.ofBits .f32 0x3F800000#32
        - Ideal.div (Ideal.ofBits .f32 0x40000000#32 * sxt + Ideal.ofBits .f32 0x3F800000#32)
            (sx + st + Ideal.ofBits .f32 0x3F800000#32)))
  + Ideal.div (max (rc - Ideal.ofBits .f32 0x3F800000#32) (-(rc - Ideal.ofBits .f32 0x3F800000#32)))
        (Ideal.ofBits .f32 0x48800000#32) * Ideal.ofBits .f32 0x3F800000#32

/-- The loss of predictions `A` and targets `B`. -/
def loss (A B : SIn.Idx → EReal) : EReal :=
  tailE (total (flat A)) (total (flat B)) (total fun n => flat A n * flat B n)
    (total fun n => bce (flat A n) (flat B n)) (((runs (flat A) : ℕ) : ℝ) : EReal)

end Cert.Spec

end
-- ==== Proof.Blocks.lean ====
/-
  The input blocks a grid point reads, as entries of the flat arrays.

  The two inputs are cast to 131072 rows of 128 lanes before the kernel; grid point t stages rows
  2048·t … 2048·t + 2047. Entry (r, l) of that block is entry (2048·t + r)·128 + l of the input read flat in
  row-major order: the cast keeps the row-major position.

  In steps: the window's index map sends point t to block (t, 0), so entry (r, l) of its block is entry
  (2048·t + r, l) of the 131072×128 array; that array is the cast of the input, and the flat reading is another cast
  of the same input; two casts of one array agree wherever the row-major positions agree, and both positions are
  (2048·t + r)·128 + l.
-/
import proofs.«151609_j34668976013761_1_alg».proof.Proof.Gen.KernelIdeal.Frame
import proofs.«151609_j34668976013761_1_alg».proof.Proof.Spec
import Idealize.ShloMosaic.Lib.Pipeline.Value
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Cert.Spec Idealize.ShloMosaic.ValueIdx

variable (m : (ℓ : Loc nD τ sig) → Buf (Elt Ideal) ℓ)

/-- The predictions' block at grid point `t`. -/
abbrev xblk (c : Dev nD) (t : Fin cfg0.N) : Vec Ideal S2048x128 .f32 := iblk m c 0 t
/-- The targets' block at grid point `t`. -/
abbrev tblk (c : Dev nD) (t : Fin cfg0.N) : Vec Ideal S2048x128 .f32 := iblk m c 1 t

/-- Two casts of one array agree at indices of equal row-major position: each reads the array at the one index of
    that position. -/
theorem shapeCast_eq_of_rowMajor {s t u : Shape} {α : Type} (x : s.Idx → α) (h1 : s.ShapeCasts t) (h2 : s.ShapeCasts u)
    (j : t.Idx) (k : u.Idx) (hk : (t.rowMajor j).val = (u.rowMajor k).val) :
    shapeCast t x h1 j = shapeCast u x h2 k :=
  shapeCast_apply x h1 j (Shape.reshapeEquiv h2 k) ((Shape.rowMajor_reshapeEquiv h2 k).trans hk.symm)

/-- The predictions' window at point `t` reads block `(t, 0)`: checked at each of the 64 points. -/
theorem xidx : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The targets' window at point `t` reads block `(t, 0)` too. -/
theorem tidx : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The array behind the predictions' window when the region is entered: the cast of the first input to 131072×128. -/
theorem V_v0 (c : Dev nD) : (V m c main_v0 : S131072x128.Idx → EReal)
    = shapeCast S131072x128 (m ((c : Thread nD τ).loc main_arg0)) shapeCasts_S64x1x512x512_S131072x128 := by
  show StableHlo.after hostOps0 (fun b => m (c, b)) (Proc.devRef .tc main_v0) = _
  after_results
  rfl

/-- The array behind the targets' window: the cast of the second input to 131072×128. -/
theorem V_v1 (c : Dev nD) : (V m c main_v1 : S131072x128.Idx → EReal)
    = shapeCast S131072x128 (m ((c : Thread nD τ).loc main_arg1)) shapeCasts_S64x1x512x512_S131072x128 := by
  show StableHlo.after hostOps0 (fun b => m (c, b)) (Proc.devRef .tc main_v1) = _
  after_results
  rfl

theorem xblk_apply (c : Dev nD) (t : Fin cfg0.N) (r : Fin 2048) (l : Fin 128) :
    xblk m c t (ix2 r l) = flat (m ((c : Thread nD τ).loc main_arg0)) ((t.val * 2048 + r.val) * 128 + l.val) := by
  have hN : cfg0.N = 64 := N_0
  have ht : t.val < 64 := hN ▸ t.isLt
  have hn : (t.val * 2048 + r.val) * 128 + l.val < 16777216 := by
    have := r.isLt; have := l.isLt; omega
  unfold flat
  rw [dif_pos hn]
  unfold xblk iblk
  rw [View.read_apply]
  show V m c main_v0 _ = _
  rw [V_v0]
  refine shapeCast_eq_of_rowMajor _ _ _ _ _ ?_
  rw [Shape.rowMajor_val_two, Shape.rowMajor_val_one]
  -- row 2048·t + r, lane l of the 131072×128 array against position (2048·t + r)·128 + l of the flat one
  show (win0_0.index t 0 * 2048 + 1 * r.val) * 128 + (win0_0.index t 1 * 128 + 1 * l.val)
    = (t.val * 2048 + r.val) * 128 + l.val
  rw [(xidx t).1, (xidx t).2]
  omega

theorem tblk_apply (c : Dev nD) (t : Fin cfg0.N) (r : Fin 2048) (l : Fin 128) :
    tblk m c t (ix2 r l) = flat (m ((c : Thread nD τ).loc main_arg1)) ((t.val * 2048 + r.val) * 128 + l.val) := by
  have hN : cfg0.N = 64 := N_0
  have ht : t.val < 64 := hN ▸ t.isLt
  have hn : (t.val * 2048 + r.val) * 128 + l.val < 16777216 := by
    have := r.isLt; have := l.isLt; omega
  unfold flat
  rw [dif_pos hn]
  unfold tblk iblk
  rw [View.read_apply]
  show V m c main_v1 _ = _
  rw [V_v1]
  refine shapeCast_eq_of_rowMajor _ _ _ _ _ ?_
  rw [Shape.rowMajor_val_two, Shape.rowMajor_val_one]
  show (win0_1.index t 0 * 2048 + 1 * r.val) * 128 + (win0_1.index t 1 * 128 + 1 * l.val)
    = (t.val * 2048 + r.val) * 128 + l.val
  rw [(tidx t).1, (tidx t).2]
  omega

end Cert.KernelIdeal.Blocks

end
-- ==== Proof.Steps.lean ====
/-
  The accumulators from one grid point to the next.

  After the first grid point the six accumulators hold the update formulas applied to zeros; after any later
  point they hold the same formulas applied to what the point before left — whether the point is a middle one or
  the last. After the last point, columns 0 … 4 of the output row hold the first five accumulators.
-/
import proofs.«151609_j34668976013761_1_alg».proof.Proof.Pieces
import proofs.«151609_j34668976013761_1_alg».proof.Proof.Blocks

noncomputable section

open Idealize.ShloMosaic Idealize.ShloMosaic.TcCoe Idealize.SL.Sem

namespace Cert.KernelIdeal.Steps

open Cert.KernelIdeal Cert.KernelIdeal.Gen Idealize.ShloMosaic.ValueIdx
open Cert.KernelIdeal.Blocks (xblk tblk)

variable (m : (ℓ : Loc nD τ sig) → Buf (Elt Ideal) ℓ)

/-- The six update formulas at blocks `x`, `t` over accumulators found at `s0 … s5`. -/
abbrev upd (x t : Vec Ideal S2048x128 .f32) (s0 s1 s2 s3 s4 s5 : Vec Ideal S1x1 .f32) :
    Vec Ideal S1x1 .f32 × Vec Ideal S1x1 .f32 × Vec Ideal S1x1 .f32 × Vec Ideal S1x1 .f32 × Vec Ideal S1x1 .f32 × Vec Ideal S1x1 .f32 :=
  (k0_pay13 x s0, k0_pay14 t s1, k0_pay16 (k0_pay15 x t s2), k0_pay17 (k0_pay11 x) (k0_pay12 t) s3,
    Pieces.runAcc x s5 s4, k0_pay2 (Pieces.nzf x))

/-- After the first grid point: the formulas over zeros. -/
theorem accs_zero (c : Dev nD) (h : 0 < cfg0.N) :
    (outsAt0 m c 0 h).2
      = upd (xblk m c ⟨0, h⟩) (tblk m c ⟨0, h⟩) (k0_pay5 (F := Ideal)) (k0_pay6 (F := Ideal)) (k0_pay7 (F := Ideal))
          (k0_pay8 (F := Ideal)) (k0_pay9 (F := Ideal)) (k0_pay10 (F := Ideal)) := by
  rw [outsAt0_A m c ⟨0, h⟩ rfl (by show ¬ (0 : ℕ) % 64 = 63; decide)]
  dsimp only
  rw [Pieces.first0, Pieces.first1, Pieces.first2, Pieces.first3, Pieces.first4, Pieces.first5]

/-- After a later grid point, middle or last: the formulas over what the point before left. -/
theorem accs_succ (c : Dev nD) (n : ℕ) (h : n + 1 < cfg0.N) :
    (outsAt0 m c (n + 1) h).2
      = upd (xblk m c ⟨n + 1, h⟩) (tblk m c ⟨n + 1, h⟩)
          (outsAt0 m c n (Nat.lt_of_succ_lt h)).2.1 (outsAt0 m c n (Nat.lt_of_succ_lt h)).2.2.1
          (outsAt0 m c n (Nat.lt_of_succ_lt h)).2.2.2.1 (outsAt0 m c n (Nat.lt_of_succ_lt h)).2.2.2.2.1
          (outsAt0 m c n (Nat.lt_of_succ_lt h)).2.2.2.2.2.1 (outsAt0 m c n (Nat.lt_of_succ_lt h)).2.2.2.2.2.2 := by
  have hN : cfg0.N = 64 := N_0
  have h0 : ¬ (⟨n + 1, h⟩ : Fin cfg0.N).val % 64 = 0 := by dsimp only; omega
  by_cases h1 : (⟨n + 1, h⟩ : Fin cfg0.N).val % 64 = 63
  · rw [outsAt0_C m c ⟨n + 1, h⟩ h0 h1]
    dsimp only
    rw [Pieces.last0, Pieces.last1, Pieces.last2, Pieces.last3, Pieces.last4, Pieces.last5]
    rfl
  · rw [outsAt0_B m c ⟨n + 1, h⟩ h0 h1]
    dsimp only
    rw [Pieces.mid0, Pieces.mid1, Pieces.mid2, Pieces.mid3, Pieces.mid4, Pieces.mid5]
    rfl

/-! ## The output row after the last grid point -/

section Row
variable (c : Dev nD) (h : 63 < cfg0.N)

theorem row0 : (outsAt0 m c 63 h).1 (ix2 0 0) = (outsAt0 m c 63 h).2.1 (ix2 0 0) := by
  rw [outsAt0_C m c ⟨63, h⟩ (by show ¬ (63 : ℕ) % 64 = 0; decide) (by show (63 : ℕ) % 64 = 63; decide)]
  dsimp only
  rw [Pieces.row0, Pieces.last0]

theorem row1 : (outsAt0 m c 63 h).1 (ix2 0 1) = (outsAt0 m c 63 h).2.2.1 (ix2 0 0) := by
  rw [outsAt0_C m c ⟨63, h⟩ (by show ¬ (63 : ℕ) % 64 = 0; decide) (by show (63 : ℕ) % 64 = 63; decide)]
  dsimp only
  rw [Pieces.row1, Pieces.last1]

theorem row2 : (outsAt0 m c 63 h).1 (ix2 0 2) = (outsAt0 m c 63 h).2.2.2.1 (ix2 0 0) := by
  rw [outsAt0_C m c ⟨63, h⟩ (by show ¬ (63 : ℕ) % 64 = 0; decide) (by show (63 : ℕ) % 64 = 63; decide)]
  dsimp only
  rw [Pieces.row2, Pieces.last2]

theorem row3 : (outsAt0 m c 63 h).1 (ix2 0 3) = (outsAt0 m c 63 h).2.2.2.2.1 (ix2 0 0) := by
  rw [outsAt0_C m c ⟨63, h⟩ (by show ¬ (63 : ℕ) % 64 = 0; decide) (by show (63 : ℕ) % 64 = 63; decide)]
  dsimp only
  rw [Pieces.row3, Pieces.last3]

theorem row4 : (outsAt0 m c 63 h).1 (ix2 0 4) = (outsAt0 m c 63 h).2.2.2.2.2.1 (ix2 0 0) := by
  rw [outsAt0_C m c ⟨63, h⟩ (by show ¬ (63 : ℕ) % 64 = 0; decide) (by show (63 : ℕ) % 64 = 63; decide)]
  dsimp only
  rw [Pieces.row4, Pieces.last4]

end Row

end Cert.KernelIdeal.Steps

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.Sums.lean ====
/-
  The four float accumulators' updates, read as numbers.

  Each of the first four accumulators is updated by adding to what it held the total of one 2048×128 array of
  per-element terms: the predictions x, the targets t, the products x·t, and the cross-entropy terms bce(x, t).
  The total is taken in two steps — each row summed over its 128 lanes, the 2048 row sums summed — which on the
  extended reals is the double sum Σ_r Σ_l. The zero the first grid point stores is the number 0.
-/
import proofs.«151609_j34668976013761_1_alg».proof.Proof.Gen.KernelIdeal.Skeleton
import proofs.«151609_j34668976013761_1_alg».proof.Proof.Spec
import proofs.«151609_j34668976013761_1_alg».proof.Proof.LibKeepdims
import Idealize.ShloMosaic.Lib.KernelVsHost

noncomputable section

open Idealize.ShloMosaic Idealize.ShloMosaic.TcCoe Idealize.SL.Sem

namespace Cert.KernelIdeal.Sums

open Cert.KernelIdeal Cert.KernelIdeal.Gen Cert.Spec Idealize.ShloMosaic.ValueIdx

/-- Rows summed over the lanes, the row sums summed over the rows, the one number cast to a 1×1 array: entry
    (0, 0) is the double sum. -/
theorem blockTotal_apply (v : FVec Ideal S2048x128 .f32)
    (hr1 : S2048x128.Reduces [1] S2048) (hc1 : S2048.ShapeCasts S2048x1) (hr0 : S2048x1.Reduces [0] S1)
    (hc0 : S1.ShapeCasts S1x1) (hφ : FKind.Formats FTy.f32) (hacc : (0x00000000#32 : BitVec 32) = FKind.add.neutral .f32 hφ) :
    shapeCast S1x1 (multiReduction .add [0] S1
        (shapeCast S2048x1 (multiReduction .add [1] S2048 v 0x00000000#32 hr1 hφ hacc) hc1) 0x00000000#32 hr0 hφ hacc) hc0
        (ix2 (0 : Fin 1) (0 : Fin 1))
      = ∑ r : Fin 2048, ∑ l : Fin 128, v (ix2 r l) := by
  rw [shapeCast_a_a1_apply]
  refine (Ideal.multiReduction_add_single _ _ hr0 hφ hacc (ix1 (0 : Fin 1))).trans ?_
  show (∑ r : Fin 2048, shapeCast S2048x1 (multiReduction .add [1] S2048 v 0x00000000#32 hr1 hφ hacc) hc1
      (hr0.lift (ix1 (0 : Fin 1)) r)) = _
  refine Finset.sum_congr rfl fun r _ => ?_
  have e : hr0.lift (ix1 (0 : Fin 1)) r = ix2 r (0 : Fin 1) :=
    funext fun ax => Fin.ext (by match ax with | ⟨0, _⟩ => rfl | ⟨1, _⟩ => rfl)
  rw [e, shapeCast_a_a1_apply, multiReduction_add_rows_apply]

/-- The zero stored at the first grid point is the number 0. -/
theorem zero_apply : (k0_pay4 (F := Ideal)) (ix2 (0 : Fin 1) (0 : Fin 1)) = 0 := by
  show Ideal.ofBits .f32 0x00000000#32 = 0
  exact Ideal.ofBits_zero_f32

theorem pay13_apply (x : Vec Ideal S2048x128 .f32) (s : Vec Ideal S1x1 .f32) :
    k0_pay13 x s (ix2 0 0) = s (ix2 0 0) + ∑ r : Fin 2048, ∑ l : Fin 128, x (ix2 r l) := by
  unfold k0_pay13 k0_pay11
  dsimp only
  simp only [shapeCast_self]
  rw [addf_apply]
  exact congrArg (fun z => s (ix2 0 0) + z) (blockTotal_apply x _ _ _ _ _ _)

theorem pay14_apply (t : Vec Ideal S2048x128 .f32) (s : Vec Ideal S1x1 .f32) :
    k0_pay14 t s (ix2 0 0) = s (ix2 0 0) + ∑ r : Fin 2048, ∑ l : Fin 128, t (ix2 r l) := by
  unfold k0_pay14 k0_pay12
  dsimp only
  simp only [shapeCast_self]
  rw [addf_apply]
  exact congrArg (fun z => s (ix2 0 0) + z) (blockTotal_apply t _ _ _ _ _ _)

theorem pay16_apply (x t : Vec Ideal S2048x128 .f32) (s : Vec Ideal S1x1 .f32) :
    k0_pay16 (k0_pay15 x t s) (ix2 0 0) = s (ix2 0 0) + ∑ r : Fin 2048, ∑ l : Fin 128, x (ix2 r l) * t (ix2 r l) := by
  unfold k0_pay16 k0_pay15 k0_pay11 k0_pay12
  dsimp only
  simp only [shapeCast_self]
  rw [addf_apply]
  exact congrArg (fun z => s (ix2 0 0) + z) (blockTotal_apply (mulf x t) _ _ _ _ _ _)

/-- One element's term as the body forms it, with its two subtractions from zero, is the cross-entropy term. -/
theorem bce_form (x t : EReal) :
    Ideal.ofBits .f32 0x00000000#32
        - (t * max (Ideal.log x) (Ideal.ofBits .f32 0xC2C80000#32)
            + (Ideal.ofBits .f32 0x3F800000#32 - t)
                * max (Ideal.log1p (Ideal.ofBits .f32 0x00000000#32 - x)) (Ideal.ofBits .f32 0xC2C80000#32))
      = bce x t := by
  rw [Ideal.ofBits_zero_f32, zero_sub, zero_sub]
  rfl

theorem pay17_apply (x t : Vec Ideal S2048x128 .f32) (s : Vec Ideal S1x1 .f32) :
    k0_pay17 (k0_pay11 x) (k0_pay12 t) s (ix2 0 0)
      = s (ix2 0 0) + ∑ r : Fin 2048, ∑ l : Fin 128, bce (x (ix2 r l)) (t (ix2 r l)) := by
  unfold k0_pay17 k0_pay11 k0_pay12
  dsimp only
  simp only [shapeCast_self]
  rw [addf_apply]
  refine congrArg (fun z => s (ix2 0 0) + z) ((blockTotal_apply _ _ _ _ _ _ _).trans ?_)
  exact Finset.sum_congr rfl fun r _ => Finset.sum_congr rfl fun l _ => bce_form (x (ix2 r l)) (t (ix2 r l))

/-- Each accumulator's reset value at the first grid point is the number 0. -/
theorem pay5_apply : (k0_pay5 (F := Ideal)) (ix2 (0 : Fin 1) (0 : Fin 1)) = 0 := by
  unfold k0_pay5; rw [shapeCast_self]; exact zero_apply
theorem pay6_apply : (k0_pay6 (F := Ideal)) (ix2 (0 : Fin 1) (0 : Fin 1)) = 0 := by
  unfold k0_pay6; rw [shapeCast_self]; exact zero_apply
theorem pay7_apply : (k0_pay7 (F := Ideal)) (ix2 (0 : Fin 1) (0 : Fin 1)) = 0 := by
  unfold k0_pay7; rw [shapeCast_self]; exact zero_apply
theorem pay8_apply : (k0_pay8 (F := Ideal)) (ix2 (0 : Fin 1) (0 : Fin 1)) = 0 := by
  unfold k0_pay8; rw [shapeCast_self]; exact zero_apply
theorem pay9_apply : (k0_pay9 (F := Ideal)) (ix2 (0 : Fin 1) (0 : Fin 1)) = 0 := by
  unfold k0_pay9; rw [shapeCast_self]; exact zero_apply
theorem pay10_apply : (k0_pay10 (F := Ideal)) (ix2 (0 : Fin 1) (0 : Fin 1)) = Ideal.ofBits .f32 0x00000000#32 := by
  unfold k0_pay10; rw [shapeCast_self]; rfl

end Cert.KernelIdeal.Sums

end
-- ==== Proof.RunStart.lean ====
/-
  The run-start accumulator's update and the carried flag, read as numbers.

  For a block x of 2048 rows of 128 lanes, read flat in row-major order, the body forms for every entry q its
  nonzero flag and the flag of its predecessor q − 1: the lane to the left inside a row (a rotation by one along
  the lanes), lane 127 of the row above at lane 0 (a rotation by one along the rows, its last column broadcast),
  and the carried flag at the very first entry. It adds Σ flag(q)·(1 − flag(q − 1)) to the accumulator and
  leaves the flag of the block's last entry as the next carried flag.

  The steps, each read at an entry (r, l), flat position q = 128·r + l:
    * the flag: the comparison with zero, widened and converted, is the number 0 or 1 (`nzf_apply`);
    * the two masks: the row (lane) coordinate as a 32-bit word is the zero word exactly when the coordinate is 0,
      the coordinates being far below 2^32 (`rowMask_apply`, `laneMask_apply`);
    * the rotation along the lanes reads lane l − 1 for l ≥ 1, the rotation along the rows with column 127
      broadcast reads lane 127 of row r − 1 for r ≥ 1 (`rotLane_apply`, `rotRow_apply`); the wrapped-around
      entries (lane 0, row 0) are never selected;
    * so the selected predecessor flag is the flag of position q − 1, the carried flag at q = 0, because
      128·r + 0 − 1 = 128·(r − 1) + 127 and 128·r + l − 1 = 128·r + (l − 1) (`prevVec_apply`);
    * the two reductions, lanes first and then rows with the column kept between them, are the double sum
      Σ_r Σ_l (`startTotal_apply`).
-/
import proofs.«151609_j34668976013761_1_alg».proof.Proof.Pieces
import proofs.«151609_j34668976013761_1_alg».proof.Proof.Spec
import proofs.«151609_j34668976013761_1_alg».proof.Proof.LibKeepdims
import Idealize.ShloMosaic.Lib.KernelVsHost
import Idealize.ShloMosaic.PureOps.Ideal.Laws

noncomputable section

open Idealize.ShloMosaic Idealize.ShloMosaic.TcCoe Idealize.SL.Sem

namespace Cert.KernelIdeal.RunStart

open Cert.KernelIdeal Cert.KernelIdeal.Gen Cert.Spec Idealize.ShloMosaic.ValueIdx

/-! ## The flag and the carried flag -/

/-- The block's own cast is the identity. -/
theorem pay11_eq (x : Vec Ideal S2048x128 .f32) : k0_pay11 x = x := by
  unfold k0_pay11
  exact shapeCast_self x _

/-- Comparing with zero, widening the bit and converting it gives the number 0 or 1. -/
theorem flag_eq (v : EReal) :
    ((((Ideal.cmp .one v (Ideal.ofBits .f32 0x00000000#32)).setWidth 32).toInt : ℝ) : EReal) = nzE v := by
  rw [toInt_setWidth_bit, Ideal.ofBits_zero_f32]
  unfold nzE nz Ideal.cmp
  by_cases h : v = 0
  · simp [h]
  · simp [h]

/-- The float flag of an entry is 1 when the entry is not zero, else 0. -/
theorem nzf_apply (x : Vec Ideal S2048x128 .f32) (r : Fin 2048) (l : Fin 128) :
    Pieces.nzf x (ix2 r l) = nzE (x (ix2 r l)) := by
  show k0_pay18 (k0_pay11 x) (ix2 r l) = _
  rw [pay11_eq]
  unfold k0_pay18
  exact flag_eq (x (ix2 r l))

/-- The 1×1 slice at offset (2047, 127) holds the block's last entry. -/
theorem slice_last (v : FVec Ideal S2048x128 .f32) :
    extractStridedSlice S1x1 ![2047, 127] v slices_S2048x128_o2047_127_S1x1 (ix2 (0 : Fin 1) (0 : Fin 1))
      = v (ix2 (2047 : Fin 2048) (127 : Fin 128)) := by
  refine extractStridedSlice_apply (s := S2048x128) (t := S1x1) ![2047, 127] v slices_S2048x128_o2047_127_S1x1
    (ix2 (0 : Fin 1) (0 : Fin 1)) (ix2 (2047 : Fin 2048) (127 : Fin 128)) ?_
  intro a
  match a with
  | ⟨0, _⟩ => rfl
  | ⟨1, _⟩ => rfl

/-- The flag carried to the next grid point is the flag of the block's last entry. -/
theorem carry_apply (x : Vec Ideal S2048x128 .f32) :
    k0_pay2 (Pieces.nzf x) (ix2 0 0) = nzE (x (ix2 2047 127)) := by
  unfold k0_pay2
  rw [shapeCast_self]
  exact (slice_last (Pieces.nzf x)).trans (nzf_apply x 2047 127)

/-! ## The two masks -/

/-- A word made of a number below 2^32 is the zero word exactly when the number is zero. -/
theorem ofNat_eq_zero_iff (n : ℕ) (hn : n < 4294967296) : (BitVec.ofNat 32 n == 0#32) = decide (n = 0) := by
  by_cases h : n = 0
  · subst h; rfl
  · have : BitVec.ofNat 32 n ≠ 0#32 := by
      intro e
      have := congrArg BitVec.toNat e
      rw [BitVec.toNat_ofNat, Nat.mod_eq_of_lt (by omega)] at this
      exact h this
    simp [h, this]

/-- The row mask: set exactly on row 0. -/
theorem rowMask_apply (r : Fin 2048) (l : Fin 128) :
    k0_pay19 (ix2 r l) = if r.val = 0 then 1#1 else 0#1 := by
  unfold k0_pay19
  show IntOp.cmpi .eq (iota .tc S2048x128 32 [0] iota_S2048x128_d0_w32 (ix2 r l)) 0#32 = _
  rw [iota_single_apply]
  show BitVec.ofBool (BitVec.ofNat 32 r.val == 0#32) = _
  rw [ofNat_eq_zero_iff r.val (by have := r.isLt; omega)]
  by_cases h : r.val = 0
  · simp [h]
  · simp [h]

/-- The lane mask: set exactly on lane 0. -/
theorem laneMask_apply (r : Fin 2048) (l : Fin 128) :
    k0_pay20 (ix2 r l) = if l.val = 0 then 1#1 else 0#1 := by
  unfold k0_pay20
  show IntOp.cmpi .eq (iota .tc S2048x128 32 [1] iota_S2048x128_d1_w32 (ix2 r l)) 0#32 = _
  rw [iota_single_apply]
  show BitVec.ofBool (BitVec.ofNat 32 l.val == 0#32) = _
  rw [ofNat_eq_zero_iff l.val (by have := l.isLt; omega)]
  by_cases h : l.val = 0
  · simp [h]
  · simp [h]

/-! ## The two rotations -/

/-- The flags rotated by one along the lanes: lane l ≥ 1 holds the flag of lane l − 1 of the same row. -/
theorem rotLane_apply (x : Vec Ideal S2048x128 .f32) (r : Fin 2048) (l l' : Fin 128) (hl : l'.val + 1 = l.val) :
    k0_pay21 (k0_pay11 x) (ix2 r l) = nzE (x (ix2 r l')) := by
  unfold k0_pay21
  refine (dynamicRotate_apply (s := S2048x128) (1 : Fin 2) 1#32 (Pieces.nzf x) rotates_S2048x128_d1 (ix2 r l) (ix2 r l') ?_).trans
    (nzf_apply x r l')
  intro b
  match b with
  | ⟨0, _⟩ => rfl
  | ⟨1, _⟩ =>
    show l'.val = (l.val + 128 - 1 % 128) % 128
    have := l.isLt
    omega

/-- The flags rotated by one along the rows, column 127 broadcast along the lanes: row r ≥ 1 holds, at every
    lane, the flag of lane 127 of row r − 1. -/
theorem rotRow_apply (x : Vec Ideal S2048x128 .f32) (r r' : Fin 2048) (l : Fin 128) (hr : r'.val + 1 = r.val) :
    k0_pay22 (k0_pay11 x) (ix2 r l) = nzE (x (ix2 r' (127 : Fin 128))) := by
  unfold k0_pay22
  refine (broadcastTo_a1_ab_apply _ broadcasts_S2048x1_S2048x128 r l).trans ?_
  rw [shapeCast_self]
  refine (extractStridedSlice_apply (s := S2048x128) (t := S2048x1) ![0, 127] _ slices_S2048x128_o0_127_S2048x1
    (ix2 r (0 : Fin 1)) (ix2 r (127 : Fin 128)) ?_).trans ?_
  · intro a
    match a with
    | ⟨0, _⟩ => exact (Nat.zero_add r.val).symm
    | ⟨1, _⟩ => rfl
  refine (dynamicRotate_apply (s := S2048x128) (0 : Fin 2) 1#32 (Pieces.nzf x) rotates_S2048x128_d0
    (ix2 r (127 : Fin 128)) (ix2 r' (127 : Fin 128)) ?_).trans (nzf_apply x r' 127)
  intro b
  match b with
  | ⟨0, _⟩ =>
    show r'.val = (r.val + 2048 - 1 % 2048) % 2048
    have := r.isLt
    omega
  | ⟨1, _⟩ => rfl

/-! ## The predecessor's flag -/

/-- The flat row-major reading of a block at position 128·r + l is the entry of row r, lane l. -/
theorem blockFlat_apply (x : Vec Ideal S2048x128 .f32) (r : Fin 2048) (l : Fin 128) :
    blockFlat x (r.val * 128 + l.val) = x (ix2 r l) := by
  have hq : r.val * 128 + l.val < 262144 := by
    have := r.isLt
    have := l.isLt
    omega
  unfold blockFlat
  rw [dif_pos hq]
  refine congrArg x (funext fun a => ?_)
  match a with
  | ⟨0, _⟩ =>
    exact Fin.ext (by
      show (r.val * 128 + l.val) / 128 = r.val
      have := l.isLt
      omega)
  | ⟨1, _⟩ =>
    exact Fin.ext (by
      show (r.val * 128 + l.val) % 128 = l.val
      have := l.isLt
      omega)

/-- The same with the position given by an equation. -/
theorem blockFlat_of (x : Vec Ideal S2048x128 .f32) (q : ℕ) (r : Fin 2048) (l : Fin 128) (h : q = r.val * 128 + l.val) :
    blockFlat x q = x (ix2 r l) := by
  subst h
  exact blockFlat_apply x r l

/-- The carried flag broadcast over the block reads the carried flag everywhere. -/
theorem carried_apply (s5 : Vec Ideal S1x1 .f32) (r : Fin 2048) (l : Fin 128) :
    broadcastTo S2048x128 (shapeCast S1x1 s5 shapeCasts_S1x1_S1x1) broadcasts_S1x1_S2048x128 (ix2 r l)
      = s5 (ix2 (0 : Fin 1) (0 : Fin 1)) := by
  rw [shapeCast_self]
  refine broadcastTo_apply (s := S1x1) (t := S2048x128) s5 broadcasts_S1x1_S2048x128 (ix2 r l)
    (ix2 (0 : Fin 1) (0 : Fin 1)) ?_
  intro a
  match a with
  | ⟨0, _⟩ => rfl
  | ⟨1, _⟩ => rfl

/-- The predecessor flags the body selects: the carried flag where row = 0 and lane = 0, else the rotated-rows column
    where lane = 0, else the rotated lanes. -/
def prevVec (x : Vec Ideal S2048x128 .f32) (s5 : Vec Ideal S1x1 .f32) : FVec Ideal S2048x128 .f32 :=
  select (andi k0_pay19 k0_pay20)
    (broadcastTo S2048x128 (shapeCast S1x1 s5 shapeCasts_S1x1_S1x1) broadcasts_S1x1_S2048x128)
    (select k0_pay20 (k0_pay22 (k0_pay11 x)) (k0_pay21 (k0_pay11 x)))

/-- The selected predecessor flag of entry (r, l) is the flag of flat position 128·r + l − 1, the carried flag at
    position 0. -/
theorem prevVec_apply (x : Vec Ideal S2048x128 .f32) (s5 : Vec Ideal S1x1 .f32) (r : Fin 2048) (l : Fin 128) :
    prevVec x s5 (ix2 r l)
      = if r.val * 128 + l.val = 0 then s5 (ix2 0 0) else nzE (blockFlat x (r.val * 128 + l.val - 1)) := by
  show Scalar.select (IntOp.andi (k0_pay19 (ix2 r l)) (k0_pay20 (ix2 r l)))
      (broadcastTo S2048x128 (shapeCast S1x1 s5 shapeCasts_S1x1_S1x1) broadcasts_S1x1_S2048x128 (ix2 r l))
      (Scalar.select (k0_pay20 (ix2 r l)) (k0_pay22 (k0_pay11 x) (ix2 r l)) (k0_pay21 (k0_pay11 x) (ix2 r l))) = _
  rw [rowMask_apply, laneMask_apply, carried_apply]
  have hrlt := r.isLt
  have hllt := l.isLt
  by_cases hl : l.val = 0
  · by_cases hr : r.val = 0
    · rw [if_pos hr, if_pos hl, if_pos (show r.val * 128 + l.val = 0 by omega)]
      exact select_one _ _
    · rw [if_neg hr, if_pos hl, if_neg (show ¬(r.val * 128 + l.val = 0) by omega)]
      refine (select_zero _ _).trans ((select_one _ _).trans ?_)
      refine (rotRow_apply x r ⟨r.val - 1, by omega⟩ l (by show r.val - 1 + 1 = r.val; omega)).trans ?_
      refine congrArg nzE (blockFlat_of x _ ⟨r.val - 1, by omega⟩ (127 : Fin 128) ?_).symm
      show r.val * 128 + l.val - 1 = (r.val - 1) * 128 + 127
      omega
  · rw [if_neg hl, if_neg (show ¬(r.val * 128 + l.val = 0) by omega)]
    have e : IntOp.andi (if r.val = 0 then 1#1 else 0#1) 0#1 = 0#1 := by
      by_cases hr : r.val = 0
      · rw [if_pos hr]; rfl
      · rw [if_neg hr]; rfl
    rw [e]
    refine (select_zero _ _).trans ((select_zero _ _).trans ?_)
    refine (rotLane_apply x r l ⟨l.val - 1, by omega⟩ (by show l.val - 1 + 1 = l.val; omega)).trans ?_
    refine congrArg nzE (blockFlat_of x _ r ⟨l.val - 1, by omega⟩ ?_).symm
    show r.val * 128 + l.val - 1 = r.val * 128 + (l.val - 1)
    omega

/-! ## The run starts and their total -/

/-- The run starts of the block as a vector: flag · (1 − predecessor's flag). -/
def startVec (x : Vec Ideal S2048x128 .f32) (s5 : Vec Ideal S1x1 .f32) : FVec Ideal S2048x128 .f32 :=
  mulf (Pieces.nzf x) (subf (broadcast S2048x128 (Scalar.ofBits (F := Ideal) .f32 0x3F800000#32)) (prevVec x s5))

theorem startVec_apply (x : Vec Ideal S2048x128 .f32) (s5 : Vec Ideal S1x1 .f32) (r : Fin 2048) (l : Fin 128) :
    startVec x s5 (ix2 r l)
      = nzE (blockFlat x (r.val * 128 + l.val))
          * (one - (if r.val * 128 + l.val = 0 then s5 (ix2 0 0) else nzE (blockFlat x (r.val * 128 + l.val - 1)))) := by
  show Pieces.nzf x (ix2 r l) * (one - prevVec x s5 (ix2 r l)) = _
  rw [nzf_apply, prevVec_apply, blockFlat_apply]

/-- The sum over the rows of a column of 2048 values. -/
theorem colSum_apply (v : FVec Ideal S2048x1 .f32) :
    multiReduction .add [0] S1 v 0x00000000#32 reduces_S2048x1_S1 (.inl rfl) rfl (ix1 (0 : Fin 1))
      = ∑ r : Fin 2048, v (ix2 r (0 : Fin 1)) := by
  refine (Ideal.multiReduction_add_single v _ reduces_S2048x1_S1 (.inl rfl) rfl (ix1 (0 : Fin 1))).trans ?_
  refine Finset.sum_congr rfl fun k _ => congrArg v (funext fun ax => Fin.ext ?_)
  match ax with
  | ⟨0, _⟩ => rfl
  | ⟨1, _⟩ => rfl

/-- The block's run starts summed over the lanes, then over the rows, as a 1×1 array. -/
def startTotal (x : Vec Ideal S2048x128 .f32) (s5 : Vec Ideal S1x1 .f32) : FVec Ideal S1x1 .f32 :=
  shapeCast S1x1
    (multiReduction .add [0] S1
      (shapeCast S2048x1
        (multiReduction .add [1] S2048 (startVec x s5) 0x00000000#32 reduces_S2048x128_S2048 (.inl rfl) rfl)
        shapeCasts_S2048_S2048x1)
      0x00000000#32 reduces_S2048x1_S1 (.inl rfl) rfl)
    shapeCasts_S1_S1x1

theorem startTotal_apply (x : Vec Ideal S2048x128 .f32) (s5 : Vec Ideal S1x1 .f32) :
    startTotal x s5 (ix2 (0 : Fin 1) (0 : Fin 1)) = ∑ r : Fin 2048, ∑ l : Fin 128, startVec x s5 (ix2 r l) := by
  unfold startTotal
  refine (shapeCast_a_a1_apply _ shapeCasts_S1_S1x1 (0 : Fin 1) (0 : Fin 1)).trans ?_
  refine (colSum_apply _).trans ?_
  refine Finset.sum_congr rfl fun r _ => ?_
  refine (shapeCast_a_a1_apply _ shapeCasts_S2048_S2048x1 r (0 : Fin 1)).trans ?_
  exact multiReduction_add_rows_apply (startVec x s5) _ reduces_S2048x128_S2048 (.inl rfl) rfl r

/-- The accumulator's update is the old value plus that total. -/
theorem runAcc_eq (x : Vec Ideal S2048x128 .f32) (s5 s4 : Vec Ideal S1x1 .f32) :
    Pieces.runAcc x s5 s4 = shapeCast S1x1 (addf s4 (startTotal x s5)) shapeCasts_S1x1_S1x1 := rfl

/-- The accumulator's update: what it held plus the block's run starts, entry 0 taking the carried flag as its
    predecessor's. -/
theorem runAcc_apply (x : Vec Ideal S2048x128 .f32) (s5 s4 : Vec Ideal S1x1 .f32) :
    Pieces.runAcc x s5 s4 (ix2 0 0)
      = s4 (ix2 0 0) + ∑ r : Fin 2048, ∑ l : Fin 128,
          nzE (blockFlat x (r.val * 128 + l.val))
            * (one - (if r.val * 128 + l.val = 0 then s5 (ix2 0 0) else nzE (blockFlat x (r.val * 128 + l.val - 1)))) := by
  refine (congrFun (runAcc_eq x s5 s4) (ix2 (0 : Fin 1) (0 : Fin 1))).trans ?_
  rw [shapeCast_self]
  show s4 (ix2 (0 : Fin 1) (0 : Fin 1)) + startTotal x s5 (ix2 (0 : Fin 1) (0 : Fin 1)) = _
  rw [startTotal_apply]
  refine congrArg (fun t => s4 (ix2 (0 : Fin 1) (0 : Fin 1)) + t) ?_
  exact Finset.sum_congr rfl fun r _ => Finset.sum_congr rfl fun l _ => startVec_apply x s5 r l

end Cert.KernelIdeal.RunStart
end
-- ==== Proof.CountBridge.lean ====
/-
  Counting with words and with extended reals.

  A flag is a 1-bit word; widened to 32 bits and added up with wrapping addition, 16777216 flags give a word whose
  signed reading is the plain count, because the count stays far below 2^31. On the other side, a sum of
  extended reals each of which is the real 0 or 1 is the real count. And a product "this element is nonzero"
  × (1 − "its predecessor is nonzero") of such reals is the natural-number product cast.

  The word side in three steps: wrapping addition is the addition of the commutative ring of 32-bit words, so the
  fold is a ring sum; a widened 1-bit word is its own value (0 or 1) cast into that ring, so the ring sum is the
  cast of the natural-number count n; and for n ≤ N < 2^31 the word of n has its top bit clear, so its signed
  reading is n itself. The step is proved for any number N < 2^31 of flags and used at N = 16777216.
  The real side: the coercion ℝ → extended reals is additive, so it commutes with finite sums (by induction on
  the index set); the word 0x3F800000 is the real 1 and the word 0 the real 0; and a flag is 0 or 1, which leaves
  four (resp. two) cases of real arithmetic.
-/
import proofs.«151609_j34668976013761_1_alg».proof.Proof.Spec
import Idealize.ShloMosaic.PureOps.Reduce
import Mathlib.Data.BitVec

noncomputable section

namespace Cert.CountBridge

open Cert.Spec Idealize.ShloMosaic

/-- The constant word 0x3F800000 is the real number 1. -/
theorem one_eq : one = ((1 : ℝ) : EReal) := by
  unfold one
  simp [Ideal.ofBits, Ideal.ieee, -EReal.coe_mul]; norm_num

/-- The coercion of reals into the extended reals commutes with finite sums. -/
theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- A nonzero flag is 0 or 1. -/
theorem nz_cases (a : EReal) : nz a = 0 ∨ nz a = 1 := by
  unfold nz; split <;> simp

/-- A fold of wrapping 32-bit addition from the zero word is the sum in the ring of 32-bit words. -/
theorem fold_addi_eq_sum {ι : Type*} (s : Finset ι) (g : ι → BitVec 32) :
    s.fold IntOp.addi 0#32 g = ∑ k ∈ s, g k := by
  classical
  induction s using Finset.induction_on with
  | empty => simp
  | insert a s ha ih =>
    rw [Finset.fold_insert ha, Finset.sum_insert ha, ih]; rfl

/-- A 1-bit word widened to 32 bits is its value, 0 or 1, cast into the 32-bit words. -/
theorem setWidth_one (x : BitVec 1) : x.setWidth 32 = ((x.toNat : ℕ) : BitVec 32) := by
  apply BitVec.eq_of_toNat_eq
  have := x.isLt
  simp [BitVec.toNat_setWidth]

/-- For any number N of flags below 2^31, the signed reading of their wrapping sum is the number of set flags:
the count is at most N, so the 32-bit word of the count has its top bit clear. -/
theorem toInt_fold_bits_of_lt {N : ℕ} (hN : N < 2 ^ 31) (b : Fin N → BitVec 1) :
    (Finset.univ.fold IntOp.addi 0#32 (fun k => (b k).setWidth 32)).toInt = ((∑ k, (b k).toNat : ℕ) : ℤ) := by
  rw [fold_addi_eq_sum]
  simp only [setWidth_one]
  rw [← Nat.cast_sum]
  have hle : (∑ k, (b k).toNat) ≤ N := by
    calc (∑ k, (b k).toNat) ≤ ∑ _k : Fin N, 1 := Finset.sum_le_sum (fun k _ => by have := (b k).isLt; omega)
      _ = N := by simp
  generalize (∑ k, (b k).toNat) = n at hle
  have h1 : ((n : ℕ) : BitVec 32) = BitVec.ofNat 32 n := rfl
  have h2 : n % 2 ^ 32 = n := Nat.mod_eq_of_lt (by omega)
  rw [h1, BitVec.toInt_eq_toNat_cond, BitVec.toNat_ofNat, h2]
  split <;> omega

/-- The signed reading of the wrapping sum of 16777216 widened flags is the number of set flags. -/
theorem toInt_fold_bits (b : Fin 16777216 → BitVec 1) :
    (Finset.univ.fold IntOp.addi 0#32 (fun k => (b k).setWidth 32)).toInt = ((∑ k, (b k).toNat : ℕ) : ℤ) :=
  toInt_fold_bits_of_lt (by norm_num) b

/-- The total, from 0, of naturals read as extended reals is their sum read as an extended real. -/
theorem total_coe (f : ℕ → ℕ) :
    total (fun n => ((f n : ℝ) : EReal)) = (((∑ i : Fin 16777216, f i.val : ℕ) : ℝ) : EReal) := by
  unfold total
  rw [zero_add, coe_sum, Nat.cast_sum]

/-- "nonzero" times (1 − "predecessor nonzero"), on the extended reals, is the product of the naturals. -/
theorem nzE_mul (a b : EReal) : nzE a * (one - nzE b) = (((nz a * (1 - nz b) : ℕ) : ℝ) : EReal) := by
  unfold nzE
  rw [one_eq]
  rcases nz_cases a with ha | ha <;> rcases nz_cases b with hb | hb <;>
    rw [ha, hb] <;> rw [← EReal.coe_sub, ← EReal.coe_mul] <;> norm_num

/-- With no predecessor (a carried flag of zero) the factor is 1. -/
theorem nzE_mul_zero (a : EReal) : nzE a * (one - Ideal.ofBits .f32 0x00000000#32) = ((nz a : ℝ) : EReal) := by
  unfold nzE
  rw [one_eq, Ideal.ofBits_zero_f32, sub_zero, ← EReal.coe_mul, mul_one]

end Cert.CountBridge

end
-- ==== Proof.Closed.lean ====
/-
  What the accumulators hold after each grid point, in closed form.

  Write X and T for the two inputs read flat. Block s covers the flat positions 262144·s … 262144·s + 262143, and
  entry (r, l) of block s is position (2048·s + r)·128 + l. By induction on the grid point n:
    * the four float accumulators hold 0 + Σ_{s ≤ n} of the block totals of X, T, X·T and bce(X, T);
    * the run accumulator holds 0 + Σ_{s ≤ n} of the block totals of "position p starts a run";
    * the carried flag is the nonzero flag of the last position so far, 262144·(n + 1) − 1.
  The run accumulator's step is where the carried flag is used: the first position of block s takes as its
  predecessor the last position of block s − 1, so the per-block formula "flag · (1 − predecessor's flag)" is the
  global one at every position but 0, where the carried zero makes the factor 1.
-/
import proofs.«151609_j34668976013761_1_alg».proof.Proof.Steps
import proofs.«151609_j34668976013761_1_alg».proof.Proof.Sums
import proofs.«151609_j34668976013761_1_alg».proof.Proof.RunStart
import proofs.«151609_j34668976013761_1_alg».proof.Proof.CountBridge

noncomputable section

open Idealize.ShloMosaic Idealize.ShloMosaic.TcCoe Idealize.SL.Sem

namespace Cert.KernelIdeal.Closed

open Cert.KernelIdeal Cert.KernelIdeal.Gen Cert.Spec Idealize.ShloMosaic.ValueIdx
open Cert.KernelIdeal.Blocks (xblk tblk)

variable (m : (ℓ : Loc nD τ sig) → Buf (Elt Ideal) ℓ)

/-- The predictions read flat. -/
abbrev X (c : Dev nD) : ℕ → EReal := flat (m ((c : Thread nD τ).loc main_arg0))
/-- The targets read flat. -/
abbrev T (c : Dev nD) : ℕ → EReal := flat (m ((c : Thread nD τ).loc main_arg1))

/-- The total of a flat sequence over block `s`. -/
def bsum (f : ℕ → EReal) (s : ℕ) : EReal := ∑ r : Fin 2048, ∑ l : Fin 128, f ((s * 2048 + r.val) * 128 + l.val)

/-- A block read flat is the flat input at the block's offset. -/
theorem blockFlat_xblk (c : Dev nD) (t : Fin cfg0.N) (q : ℕ) (hq : q < 262144) :
    blockFlat (xblk m c t) q = X m c (t.val * 262144 + q) := by
  unfold blockFlat
  rw [dif_pos hq, Blocks.xblk_apply]
  refine congrArg (X m c) ?_
  show (t.val * 2048 + q / 128) * 128 + q % 128 = t.val * 262144 + q
  omega

/-- One position's term of the run accumulator's update is "this position starts a run", given that the carried
    flag is the flag of the position before the block (zero before the first block). -/
theorem term_eq (c : Dev nD) (t : Fin cfg0.N) (cv : EReal)
    (hcv : (t.val = 0 → cv = Ideal.ofBits .f32 0x00000000#32) ∧ (t.val ≠ 0 → cv = nzE (X m c (t.val * 262144 - 1))))
    (r : Fin 2048) (l : Fin 128) :
    nzE (blockFlat (xblk m c t) (r.val * 128 + l.val))
        * (one - (if r.val * 128 + l.val = 0 then cv else nzE (blockFlat (xblk m c t) (r.val * 128 + l.val - 1))))
      = (((start (X m c) ((t.val * 2048 + r.val) * 128 + l.val) : ℕ) : ℝ) : EReal) := by
  have hr := r.isLt
  have hl := l.isLt
  rw [blockFlat_xblk m c t _ (by omega)]
  have hp : t.val * 262144 + (r.val * 128 + l.val) = (t.val * 2048 + r.val) * 128 + l.val := by omega
  rw [hp]
  by_cases hq : r.val * 128 + l.val = 0
  · rw [if_pos hq]
    by_cases ht : t.val = 0
    · have hp0 : (t.val * 2048 + r.val) * 128 + l.val = 0 := by omega
      rw [hcv.1 ht, hp0, CountBridge.nzE_mul_zero]
      unfold start
      rw [if_pos rfl]
    · have hpne : (t.val * 2048 + r.val) * 128 + l.val ≠ 0 := by omega
      have hpm : t.val * 262144 - 1 = (t.val * 2048 + r.val) * 128 + l.val - 1 := by omega
      rw [hcv.2 ht, hpm, CountBridge.nzE_mul]
      unfold start
      rw [if_neg hpne]
  · rw [if_neg hq, blockFlat_xblk m c t _ (by omega)]
    have hpne : (t.val * 2048 + r.val) * 128 + l.val ≠ 0 := by omega
    have hpm : t.val * 262144 + (r.val * 128 + l.val - 1) = (t.val * 2048 + r.val) * 128 + l.val - 1 := by omega
    rw [hpm, CountBridge.nzE_mul]
    unfold start
    rw [if_neg hpne]

/-! ## One block's totals, in terms of the flat inputs -/

theorem bx (c : Dev nD) (t : Fin cfg0.N) :
    (∑ r : Fin 2048, ∑ l : Fin 128, xblk m c t (ix2 r l)) = bsum (X m c) t.val :=
  Finset.sum_congr rfl fun r _ => Finset.sum_congr rfl fun l _ => Blocks.xblk_apply m c t r l

theorem bt (c : Dev nD) (t : Fin cfg0.N) :
    (∑ r : Fin 2048, ∑ l : Fin 128, tblk m c t (ix2 r l)) = bsum (T m c) t.val :=
  Finset.sum_congr rfl fun r _ => Finset.sum_congr rfl fun l _ => Blocks.tblk_apply m c t r l

theorem bxt (c : Dev nD) (t : Fin cfg0.N) :
    (∑ r : Fin 2048, ∑ l : Fin 128, xblk m c t (ix2 r l) * tblk m c t (ix2 r l))
      = bsum (fun p => X m c p * T m c p) t.val :=
  Finset.sum_congr rfl fun r _ => Finset.sum_congr rfl fun l _ => by
    rw [Blocks.xblk_apply m c t r l, Blocks.tblk_apply m c t r l]

theorem bb (c : Dev nD) (t : Fin cfg0.N) :
    (∑ r : Fin 2048, ∑ l : Fin 128, bce (xblk m c t (ix2 r l)) (tblk m c t (ix2 r l)))
      = bsum (fun p => bce (X m c p) (T m c p)) t.val :=
  Finset.sum_congr rfl fun r _ => Finset.sum_congr rfl fun l _ => by
    rw [Blocks.xblk_apply m c t r l, Blocks.tblk_apply m c t r l]

/-- The run starts of a block, given the carried flag. -/
theorem brs (c : Dev nD) (t : Fin cfg0.N) (cv : EReal)
    (hcv : (t.val = 0 → cv = Ideal.ofBits .f32 0x00000000#32) ∧ (t.val ≠ 0 → cv = nzE (X m c (t.val * 262144 - 1)))) :
    (∑ r : Fin 2048, ∑ l : Fin 128,
        nzE (blockFlat (xblk m c t) (r.val * 128 + l.val))
          * (one - (if r.val * 128 + l.val = 0 then cv else nzE (blockFlat (xblk m c t) (r.val * 128 + l.val - 1)))))
      = bsum (fun p => (((start (X m c) p : ℕ) : ℝ) : EReal)) t.val :=
  Finset.sum_congr rfl fun r _ => Finset.sum_congr rfl fun l _ => term_eq m c t cv hcv r l

/-- The flag a point leaves for the next one is the flag of the last position of its block. -/
theorem carry (c : Dev nD) (t : Fin cfg0.N) :
    k0_pay2 (Pieces.nzf (xblk m c t)) (ix2 0 0) = nzE (X m c ((t.val + 1) * 262144 - 1)) := by
  rw [RunStart.carry_apply, Blocks.xblk_apply m c t (2047 : Fin 2048) (127 : Fin 128)]
  refine congrArg (fun p => nzE (X m c p)) ?_
  show (t.val * 2048 + 2047) * 128 + 127 = (t.val + 1) * 262144 - 1
  omega

/-! ## The induction over the grid points -/

/-- What the six accumulators hold after grid point `n`. -/
theorem closed (c : Dev nD) : ∀ (n : ℕ) (h : n < cfg0.N),
    (outsAt0 m c n h).2.1 (ix2 0 0) = 0 + ∑ s ∈ Finset.range (n + 1), bsum (X m c) s
    ∧ (outsAt0 m c n h).2.2.1 (ix2 0 0) = 0 + ∑ s ∈ Finset.range (n + 1), bsum (T m c) s
    ∧ (outsAt0 m c n h).2.2.2.1 (ix2 0 0) = 0 + ∑ s ∈ Finset.range (n + 1), bsum (fun p => X m c p * T m c p) s
    ∧ (outsAt0 m c n h).2.2.2.2.1 (ix2 0 0) = 0 + ∑ s ∈ Finset.range (n + 1), bsum (fun p => bce (X m c p) (T m c p)) s
    ∧ (outsAt0 m c n h).2.2.2.2.2.1 (ix2 0 0)
        = 0 + ∑ s ∈ Finset.range (n + 1), bsum (fun p => (((start (X m c) p : ℕ) : ℝ) : EReal)) s
    ∧ (outsAt0 m c n h).2.2.2.2.2.2 (ix2 0 0) = nzE (X m c ((n + 1) * 262144 - 1))
  | 0, h => by
    rw [Steps.accs_zero m c h]
    dsimp only [Steps.upd]
    refine ⟨?_, ?_, ?_, ?_, ?_, ?_⟩
    · rw [Sums.pay13_apply, Sums.pay5_apply, Finset.sum_range_one, bx m c ⟨0, h⟩]
    · rw [Sums.pay14_apply, Sums.pay6_apply, Finset.sum_range_one, bt m c ⟨0, h⟩]
    · rw [Sums.pay16_apply, Sums.pay7_apply, Finset.sum_range_one, bxt m c ⟨0, h⟩]
    · rw [Sums.pay17_apply, Sums.pay8_apply, Finset.sum_range_one, bb m c ⟨0, h⟩]
    · rw [RunStart.runAcc_apply, Sums.pay9_apply, Finset.sum_range_one,
        brs m c ⟨0, h⟩ _ ⟨fun _ => Sums.pay10_apply, fun hne => absurd rfl hne⟩]
    · exact carry m c ⟨0, h⟩
  | n + 1, h => by
    obtain ⟨i0, i1, i2, i3, i4, i5⟩ := closed c n (Nat.lt_of_succ_lt h)
    rw [Steps.accs_succ m c n h]
    dsimp only [Steps.upd]
    refine ⟨?_, ?_, ?_, ?_, ?_, ?_⟩
    · rw [Sums.pay13_apply, i0, Finset.sum_range_succ _ (n + 1), add_assoc, bx m c ⟨n + 1, h⟩]
    · rw [Sums.pay14_apply, i1, Finset.sum_range_succ _ (n + 1), add_assoc, bt m c ⟨n + 1, h⟩]
    · rw [Sums.pay16_apply, i2, Finset.sum_range_succ _ (n + 1), add_assoc, bxt m c ⟨n + 1, h⟩]
    · rw [Sums.pay17_apply, i3, Finset.sum_range_succ _ (n + 1), add_assoc, bb m c ⟨n + 1, h⟩]
    · rw [RunStart.runAcc_apply, i4, Finset.sum_range_succ _ (n + 1), add_assoc,
        brs m c ⟨n + 1, h⟩ _ ⟨fun h0 => absurd h0 (Nat.succ_ne_zero n), fun _ => i5⟩]
    · exact carry m c ⟨n + 1, h⟩

end Cert.KernelIdeal.Closed

end
-- ==== Proof.SumBlocks.lean ====
/-
  Regrouping a sum over a flat array into a sum over row blocks.

  An array of A·B entries, read as A consecutive runs of B entries, has the same total whichever way it is
  summed: entry by entry along the flat position, or run by run and inside each run. Addition is only asked to be
  commutative and associative, so the statement holds on the extended reals with no finiteness hypothesis.
  Applied twice it splits 16777216 flat positions into 64 blocks of 2048 rows of 128 lanes.
-/
import Mathlib.Algebra.BigOperators.Fin
import Mathlib.Logic.Equiv.Fin.Basic

namespace Cert.SumBlocks

open Finset

/-- The total over `A·B` flat positions is the total over `A` runs of the total over the `B` positions of each run;
    position `a·B + b` is entry `b` of run `a`. -/
theorem sum_runs {M : Type*} [AddCommMonoid M] (A B N : ℕ) (h : A * B = N) (g : ℕ → M) :
    ∑ a : Fin A, ∑ b : Fin B, g (a.val * B + b.val) = ∑ i : Fin N, g i.val := by
  subst h
  rw [← Fintype.sum_prod_type', ← Equiv.sum_comp finProdFinEquiv (fun i : Fin (A * B) => g i.val)]
  refine Fintype.sum_congr _ _ fun p => congrArg g ?_
  rw [finProdFinEquiv_apply_val, Nat.mul_comm, Nat.add_comm]

/-- Three levels at once: blocks, rows of a block, lanes of a row. -/
theorem sum_blocks_rows_lanes {M : Type*} [AddCommMonoid M] (T R C N : ℕ) (h : T * R * C = N) (g : ℕ → M) :
    ∑ t : Fin T, ∑ r : Fin R, ∑ c : Fin C, g ((t.val * R + r.val) * C + c.val) = ∑ i : Fin N, g i.val := by
  rw [← sum_runs (T * R) C N h g, ← sum_runs T R (T * R) rfl (fun q => ∑ c : Fin C, g (q * C + c.val))]

/-- The same with the blocks counted by a range of naturals, as a fold over grid points leaves them. -/
theorem sum_range_blocks {M : Type*} [AddCommMonoid M] (T R C N : ℕ) (h : T * R * C = N) (g : ℕ → M) :
    ∑ t ∈ Finset.range T, ∑ r : Fin R, ∑ c : Fin C, g ((t * R + r.val) * C + c.val) = ∑ i : Fin N, g i.val := by
  rw [← sum_blocks_rows_lanes T R C N h g, Finset.sum_range]

end Cert.SumBlocks
-- ==== Proof.KernelValue.lean ====
/-
  The idealized kernel's result is the loss of its two inputs.

  Only the last grid point writes the 1×128 output row back, and the row's one block is the whole array, so after
  the region the array holds what that point left in the staging buffer: columns 0 … 4 the five accumulators
  after all 64 points. Each float accumulator is 0 + Σ over the 64 blocks of the block totals, which regroups
  into 0 + Σ over all 16777216 flat positions; the run accumulator is the number of run starts as a real. The host
  operations after the region slice the five columns out and apply the closing arithmetic.
-/
import proofs.«151609_j34668976013761_1_alg».proof.Proof.Closed
import proofs.«151609_j34668976013761_1_alg».proof.Proof.SumBlocks
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec Idealize.ShloMosaic.ValueIdx Idealize.ShloMosaic.StableHlo
open Cert.KernelIdeal.Closed (X T bsum)

variable (m : (ℓ : Loc nD τ sig) → Buf (Elt Ideal) ℓ) (ρ : Dev nD → PrngReg)

theorem h63 : 63 < cfg0.N := by rw [show cfg0.N = 64 from N_0]; decide

/-- The last grid point. -/
abbrev tlast : Fin cfg0.N := ⟨63, h63⟩

/-- The output row as the last grid point leaves it. -/
abbrev row (c : Dev nD) : Buf (Elt Ideal) ((c : Thread nD τ).loc main_v2) := (outsAt0 m c 63 h63).1

set_option maxHeartbeats 4000000 in
/-- The one write-back, at the last point, writes the row: block (0, 0) of the 1×128 array is the array. -/
theorem flushed_eq (c : Dev nD) (t : Fin cfg0.N) (hf : (cfg0.win 2).flush t = true) :
    (dats m 0 c).flushed 2 t = ((cfg0.win 2).blk t).view.read (Elt Ideal) (row m c) := by
  have hN : cfg0.N = 64 := N_0
  have h3 : t.val = 63 := by have := (flush0_2 t).mp hf; have := t.isLt; omega
  obtain rfl : t = tlast := Fin.ext h3
  unfold Dat.flushed
  rw [after0_2]
  have hz' : (fun a => win0_2.index tlast a * main_v2.ty.shape.size a) = fun _ => 0 :=
    funext fun a => by fin_cases a <;> decide +kernel
  exact (Memref.read_access_unit_zero (Elt Ideal) main_v2 hz' (fun a => by rw [congrFun hz' a]; simp) (row m c)).symm

/-- So the output array after the region is that row. -/
theorem final_row (c : Dev nD) : (dats m 0 c).arrAt 2 cfg0.N = row m c :=
  (dats m 0 c).arrAt_eq_of_cover 2 (row m c) (flushed_eq m c) fun i =>
    ⟨tlast, (flush0_2 tlast).mpr rfl, by
      show i ∈ ((View.whole main_v2).slice (win0_2.rect tlast)).set
      rw [View.set_slice_whole, Rect.mem_set_unit]
      intro a
      have h0 : (i 0 : Nat) < 1 := (i 0).isLt
      have h1 : (i 1 : Nat) < 128 := (i 1).isLt
      match a with
      | ⟨0, _⟩ =>
        show win0_2.index tlast 0 * win0_2.size 0 ≤ (i 0 : Nat)
          ∧ (i 0 : Nat) < win0_2.index tlast 0 * win0_2.size 0 + win0_2.xsize (grid0.coords tlast) 0
        rw [show win0_2.index tlast 0 * win0_2.size 0 = 0 from by decide +kernel,
          show win0_2.xsize (grid0.coords tlast) 0 = 1 from by decide +kernel]
        omega
      | ⟨1, _⟩ =>
        show win0_2.index tlast 1 * win0_2.size 1 ≤ (i 1 : Nat)
          ∧ (i 1 : Nat) < win0_2.index tlast 1 * win0_2.size 1 + win0_2.xsize (grid0.coords tlast) 1
        rw [show win0_2.index tlast 1 * win0_2.size 1 = 0 from by decide +kernel,
          show win0_2.xsize (grid0.coords tlast) 1 = 128 from by decide +kernel]
        omega⟩

/-- A sum over the 64 blocks of block totals, from 0, is the total over all flat positions. -/
theorem blocks_total (f : ℕ → EReal) : 0 + ∑ s ∈ Finset.range (63 + 1), bsum f s = total f := by
  unfold total bsum
  rw [Cert.SumBlocks.sum_range_blocks 64 2048 128 16777216 rfl f]

/-- The five columns of the row. -/
theorem row_x (c : Dev nD) : row m c (ix2 0 0) = total (X m c) := by
  show (outsAt0 m c 63 h63).1 (ix2 0 0) = _
  rw [Steps.row0 m c h63, (Closed.closed m c 63 h63).1, blocks_total]
theorem row_t (c : Dev nD) : row m c (ix2 0 1) = total (T m c) := by
  show (outsAt0 m c 63 h63).1 (ix2 0 1) = _
  rw [Steps.row1 m c h63, (Closed.closed m c 63 h63).2.1, blocks_total]
theorem row_xt (c : Dev nD) : row m c (ix2 0 2) = total (fun p => X m c p * T m c p) := by
  show (outsAt0 m c 63 h63).1 (ix2 0 2) = _
  rw [Steps.row2 m c h63, (Closed.closed m c 63 h63).2.2.1, blocks_total]
theorem row_bce (c : Dev nD) : row m c (ix2 0 3) = total (fun p => bce (X m c p) (T m c p)) := by
  show (outsAt0 m c 63 h63).1 (ix2 0 3) = _
  rw [Steps.row3 m c h63, (Closed.closed m c 63 h63).2.2.2.1, blocks_total]
theorem row_runs (c : Dev nD) : row m c (ix2 0 4) = (((runs (X m c) : ℕ) : ℝ) : EReal) := by
  show (outsAt0 m c 63 h63).1 (ix2 0 4) = _
  rw [Steps.row4 m c h63, (Closed.closed m c 63 h63).2.2.2.2.1, blocks_total, Cert.CountBridge.total_coe]
  rfl

/-- Column `k` of a 1×128 row, sliced out as a 1×1 array and cast to a scalar, is the row's entry (0, k). -/
theorem col_read (R : S1x128.Idx → EReal) (k : Fin 128) (off : Fin 2 → Nat) (hoff : off = ![0, k.val])
    (hs : S1x128.Slices off S1x1) (hc : S1x1.ShapeCasts S_) (i : S_.Idx) :
    shapeCast S_ (extractStridedSlice S1x1 off R hs) hc i = R (ix2 0 k) := by
  subst hoff
  refine (shapeCast_apply _ hc i (ix2 (0 : Fin 1) (0 : Fin 1)) ?_).trans ?_
  · rw [Shape.rowMajor_val_two]
    have h1 : (S_.rowMajor i).val < 1 := (S_.rowMajor i).isLt
    show (0 : ℕ) * 1 + 0 = (S_.rowMajor i).val
    omega
  · unfold extractStridedSlice
    refine congrArg R (funext fun a => Fin.ext ?_)
    match a with
    | ⟨0, _⟩ => rfl
    | ⟨1, _⟩ => show k.val + 0 = k.val; omega

set_option maxHeartbeats 8000000 in
/-- The host operations after the region, applied to the array the region leaves: the five columns sliced out of the
    row and the closing arithmetic on them. -/
theorem result_eq (c : Dev nD) :
    Pipeline.afterTail₀ cfgs (dats m) 0 (V0 m) [hostOps1] c main_v26
      = fun _ => loss (m ((c : Thread nD τ).loc main_arg0)) (m ((c : Thread nD τ).loc main_arg1)) := by
  unfold Pipeline.afterTail₀
  simp only [List.flatten_cons, List.flatten_nil, List.append_nil]
  after_results_simp
  have hA : Pipeline.withArrays (cfgs 0).spec c (V0 m c) (fun w => (dats m 0 c).arrAt w (cfgs 0).N) (Proc.devRef .tc main_v2)
      = row m c := (Pipeline.withArrays_arr spec0 launch0.win.arr_inj c _ _ 2).trans (final_row m c)
  rw [hA]
  funext i
  show tailE (shapeCast S_ (extractStridedSlice S1x1 ![0, 0] (row m c) slices_S1x128_S1x1_0_0) shapeCasts_S1x1_S_ i)
      (shapeCast S_ (extractStridedSlice S1x1 ![0, 1] (row m c) slices_S1x128_S1x1_0_1) shapeCasts_S1x1_S_ i)
      (shapeCast S_ (extractStridedSlice S1x1 ![0, 2] (row m c) slices_S1x128_S1x1_0_2) shapeCasts_S1x1_S_ i)
      (shapeCast S_ (extractStridedSlice S1x1 ![0, 3] (row m c) slices_S1x128_S1x1_0_3) shapeCasts_S1x1_S_ i)
      (shapeCast S_ (extractStridedSlice S1x1 ![0, 4] (row m c) slices_S1x128_S1x1_0_4) shapeCasts_S1x1_S_ i) = _
  rw [col_read (row m c) 0 ![0, 0] rfl, col_read (row m c) 1 ![0, 1] rfl, col_read (row m c) 2 ![0, 2] rfl,
    col_read (row m c) 3 ![0, 3] rfl, col_read (row m c) 4 ![0, 4] rfl]
  rw [row_x, row_t, row_xt, row_bce, row_runs]
  rfl

/-- Every weakly fair execution of the idealized kernel ends with its result at the loss of its inputs, the inputs
    unchanged: the generated frame run, its result buffer read by the lemma above. -/
theorem run : θ_run (defs (F := Ideal)) (onTc (τ := τ) (main (F := Ideal))) ⟨m, fun _ => 0, ρ⟩ fun r => ∀ c : Dev nD,
      r.2.mem ((c.tc : Thread nD τ).loc main_v26)
          = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v26 (Pipeline.mem_restRefs_of main_v26 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Value

end
-- ==== Proof.RefValue.lean ====
/-
  The reference program's result is the loss of its two inputs.

  The reference flattens both inputs, takes the four float totals with one reduction each, counts the run starts
  with 1-bit flags (the first flag, then "flag and not the flag before" for the rest, joined into one row),
  widens them to 32-bit integers, adds them up and converts the count to a float, and closes with the same
  arithmetic as the kernel's host tail.

  The argument, piece by piece. An index of the flat row is its one coordinate, so a sum (or a fold by a
  commutative, associative operation) over the row's indices is the sum over the numbers below N = 16777216,
  and entry n of a flattened input is `flat A n`. Each float reduction into the rank-0 result is the initial
  value 0 plus the sum of its operand over every index: this gives the totals of x, of t, of x·t, and, after
  reading the elementwise operations at an index, of bce(x, t). For the count: the comparison flag at n is
  "flat A n ≠ 0"; entry 0 of the joined row is flag 0 and entry p + 1 is "flag (p + 1) and not flag p", so as a
  number it is `start (flat A)` at that position; the integer reduction into rank 0 folds wrapping addition over
  every index, the signed reading of that fold of widened flags is the number of set flags, and its conversion
  is that number as an extended real, `runs (flat A)`. The remaining scalar operations are `tailE` verbatim.
-/
import proofs.«151609_j34668976013761_1_alg».proof.Proof.Gen.ReferenceIdeal.Run
import proofs.«151609_j34668976013761_1_alg».proof.Proof.Gen.ReferenceIdeal.Read
import proofs.«151609_j34668976013761_1_alg».proof.Proof.Spec
import proofs.«151609_j34668976013761_1_alg».proof.Proof.CountBridge

noncomputable section

open Idealize.ShloMosaic Idealize.ShloMosaic.TcCoe Idealize.SL.Sem

namespace Cert.ReferenceIdeal.RefValue

open Cert.ReferenceIdeal Cert.ReferenceIdeal.Gen Cert.Spec Idealize.ShloMosaic.ValueIdx

/-- An input array. -/
abbrev Arr := (⟨S64x1x512x512, .f32⟩ : BufTy).Contents (Elt Ideal)

/-! ## The flat row's indices are the numbers below N -/

/-- An index of the flat row is its one coordinate. -/
def flatEquiv : Fin 16777216 ≃ S16777216.Idx where
  toFun := ix1
  invFun j := j 0
  left_inv _ := rfl
  right_inv j := (eq_ix1 j).symm

/-- A sum over the flat row's indices is the sum over the numbers below N. -/
theorem sum_flat (f : S16777216.Idx → EReal) : ∑ j : S16777216.Idx, f j = ∑ i : Fin 16777216, f (ix1 i) :=
  (Equiv.sum_comp flatEquiv f).symm

/-- A fold over the flat row's indices is the fold over the numbers below N. -/
theorem fold_flat {β : Type} (op : β → β → β) [Std.Commutative op] [Std.Associative op] (b : β)
    (x : S16777216.Idx → β) :
    (Finset.univ : Finset S16777216.Idx).fold op b x
      = (Finset.univ : Finset (Fin 16777216)).fold op b (fun k => x (ix1 k)) := by
  rw [← Finset.map_univ_equiv flatEquiv, Finset.fold_map]
  rfl

/-- Entry i of the flattened predictions. -/
theorem v0_at (A : Arr) (i : Fin 16777216) : Read.val_main_v0 (F := Ideal) A (ix1 i) = flat A i.val := by
  unfold flat
  rw [dif_pos i.isLt]
  rfl

/-- Entry i of the flattened targets. -/
theorem v1_at (B : Arr) (i : Fin 16777216) : Read.val_main_v1 (F := Ideal) B (ix1 i) = flat B i.val := by
  unfold flat
  rw [dif_pos i.isLt]
  rfl

/-! ## The four float totals -/

/-- Σ x. -/
theorem v6_eq (A : Arr) : Read.val_main_v6 (F := Ideal) A ix0 = total (flat A) := by
  rw [Read.val_main_v6_apply, sum_flat, Read.val_main_cst_2_apply, Ideal.ofBits_def, Ideal.ofBits_zero_f32]
  simp only [v0_at]
  rfl

/-- Σ t. -/
theorem v7_eq (B : Arr) : Read.val_main_v7 (F := Ideal) B ix0 = total (flat B) := by
  rw [Read.val_main_v7_apply, sum_flat, Read.val_main_cst_3_apply, Ideal.ofBits_def, Ideal.ofBits_zero_f32]
  simp only [v1_at]
  rfl

/-- Σ x·t. -/
theorem v3_eq (A B : Arr) : Read.val_main_v3 (F := Ideal) A B ix0 = total (fun n => flat A n * flat B n) := by
  rw [Read.val_main_v3_apply, sum_flat, Read.val_main_cst_apply, Ideal.ofBits_def, Ideal.ofBits_zero_f32]
  simp only [Read.val_main_v2_apply, Ideal.mulf_def, v0_at, v1_at]
  rfl

/-- The elementwise cross-entropy term at entry i: −(t·max(log x, −100) + (1 − t)·max(log(1 + (−x)), −100)). -/
theorem v24_at (A B : Arr) (i : Fin 16777216) :
    Read.val_main_v24 (F := Ideal) A B (ix1 i) = bce (flat A i.val) (flat B i.val) := by
  simp only [Read.val_main_v24_apply, Read.val_main_v23_apply, Read.val_main_v19_apply, Read.val_main_v22_apply,
    Read.val_main_v14_apply, Read.val_main_v12_apply, Read.val_main_v13_apply, Read.val_main_cst_6_apply,
    Read.val_main_v21_apply, Read.val_main_v20_apply, Read.val_main_cst_8_apply, Read.val_main_v18_apply,
    Read.val_main_v16_apply, Read.val_main_v17_apply, Read.val_main_cst_7_apply, Read.val_main_v15_apply,
    Ideal.hostNegf_def, Ideal.negf_def, Ideal.addf_def, Ideal.mulf_def, Ideal.subf_def, Ideal.maximumf_def,
    Ideal.hostUnary_log_def, Ideal.hostUnary_log1p_def, Ideal.ofBits_def, v0_at, v1_at]
  rfl

/-- Σ bce(x, t). -/
theorem v25_eq (A B : Arr) :
    Read.val_main_v25 (F := Ideal) A B ix0 = total (fun n => bce (flat A n) (flat B n)) := by
  rw [Read.val_main_v25_apply, sum_flat, Read.val_main_cst_9_apply, Ideal.ofBits_def, Ideal.ofBits_zero_f32]
  simp only [v24_at]
  rfl

/-! ## The run count -/

/-- The "not zero" flag of entry k. -/
theorem v28_at (A : Arr) (k : Fin 16777216) :
    Read.val_main_v28 (F := Ideal) A (ix1 k) = BitVec.ofBool (decide (flat A k.val ≠ 0)) := by
  rw [Read.val_main_v28_apply, Read.val_main_v27_apply, Read.val_main_cst_11_apply, v0_at, Ideal.ofBits_def,
    Ideal.ofBits_zero_f32]
  rfl

/-- The joined row's entry 0 is the first flag. -/
theorem v34_zero (A : Arr) :
    Read.val_main_v34 (F := Ideal) A (ix1 ⟨0, by omega⟩) = Read.val_main_v28 (F := Ideal) A (ix1 ⟨0, by omega⟩) := by
  unfold Read.val_main_v34
  rw [concatenate_pair_apply_left (0 : Fin S16777216.rank) _ _ concatenates_S1_S16777215_S16777216_d0
    (ix1 ⟨0, by omega⟩) rfl (ix1 ⟨0, by omega⟩) (fun b => match b with | ⟨0, _⟩ => rfl)]
  rw [Read.val_main_v29_apply]
  exact congrArg _ (funext fun a => match a with | ⟨0, _⟩ => rfl)

/-- The joined row's entry p + 1 is "flag p + 1 and not flag p". -/
theorem v34_succ (A : Arr) (p : Fin 16777215) :
    Read.val_main_v34 (F := Ideal) A (ix1 ⟨p.val + 1, by omega⟩)
      = IntOp.andi (Read.val_main_v28 (F := Ideal) A (ix1 ⟨p.val + 1, by omega⟩))
          (~~~ Read.val_main_v28 (F := Ideal) A (ix1 ⟨p.val, by omega⟩)) := by
  unfold Read.val_main_v34
  rw [concatenate_pair_apply_right (0 : Fin S16777216.rank) _ _ concatenates_S1_S16777215_S16777216_d0
    (ix1 ⟨p.val + 1, by omega⟩) rfl rfl (ix1 p) (fun b hb => absurd (Subsingleton.elim _ _) hb) rfl]
  rw [Read.val_main_v33_apply, Read.val_main_v30_apply, Read.val_main_v32_apply, Read.val_main_v31_apply]
  have e1 : Read.idx_main_v30 (ix1 p) = ix1 ⟨p.val + 1, by omega⟩ :=
    funext fun a => match a with | ⟨0, _⟩ => Fin.ext (by show 1 + p.val = p.val + 1; omega)
  have e2 : Read.idx_main_v31 (ix1 p) = ix1 ⟨p.val, by omega⟩ :=
    funext fun a => match a with | ⟨0, _⟩ => rfl
  rw [e1, e2]

/-- A "not zero" flag read as a number. -/
theorem flag_toNat (x : EReal) : (BitVec.ofBool (decide (x ≠ 0))).toNat = nz x := by
  unfold nz; by_cases h : x = 0 <;> simp [h]

/-- "this flag and not that flag" read as a number is the product nz x · (1 − nz y). -/
theorem start_toNat (x y : EReal) :
    (IntOp.andi (BitVec.ofBool (decide (x ≠ 0))) (~~~ BitVec.ofBool (decide (y ≠ 0)))).toNat = nz x * (1 - nz y) := by
  unfold nz IntOp.andi; by_cases hx : x = 0 <;> by_cases hy : y = 0 <;> simp [hx, hy]

/-- The joined row's entry k, read as a number, says whether position k starts a run. -/
theorem v34_toNat (A : Arr) (k : Fin 16777216) :
    (Read.val_main_v34 (F := Ideal) A (ix1 k)).toNat = start (flat A) k.val := by
  obtain ⟨n, hn⟩ := k
  cases n with
  | zero =>
    rw [v34_zero, v28_at, flag_toNat]
    rfl
  | succ p =>
    rw [v34_succ A ⟨p, by omega⟩, v28_at, v28_at, start_toNat]
    unfold start
    rw [if_neg (Nat.succ_ne_zero p)]
    rfl

/-- The integer total of the widened flags: into a rank-0 result every index is folded, from the word 0. -/
theorem v36_eq (A : Arr) :
    Read.val_main_v36 (F := Ideal) A ix0
      = Finset.univ.fold IntOp.addi 0#32
          (fun k : Fin 16777216 => (Read.val_main_v34 (F := Ideal) A (ix1 k)).setWidth 32) := by
  unfold Read.val_main_v36
  rw [Host.reduce_eq_fold IntOp.addi _ _ reducesTo_S16777216_S_d0 h_S_ ix0,
    Finset.filter_true_of_mem (fun i _ => funext fun a => a.elim0), fold_flat]
  rfl

/-- The converted count is the number of runs. -/
theorem v37_eq (A : Arr) : Read.val_main_v37 (F := Ideal) A ix0 = (((runs (flat A) : ℕ) : ℝ) : EReal) := by
  rw [Read.val_main_v37_apply, v36_eq]
  show ((((Finset.univ.fold IntOp.addi 0#32
    (fun k : Fin 16777216 => (Read.val_main_v34 (F := Ideal) A (ix1 k)).setWidth 32)).toInt : ℤ) : ℝ) : EReal) = _
  rw [CountBridge.toInt_fold_bits (fun k => Read.val_main_v34 (F := Ideal) A (ix1 k)), Int.cast_natCast]
  unfold runs
  simp only [v34_toNat]

/-! ## The closing arithmetic and the run -/

/-- The reference's closing arithmetic on its five totals is the loss. -/
theorem v44_eq (A B : Arr) : Read.val_main_v44 (F := Ideal) A B ix0 = loss A B := by
  rw [Read.val_main_v44_apply, Read.val_main_v42_apply, Read.val_main_v41_apply, Read.val_main_v26_apply,
    Read.val_main_cst_10_apply, Read.val_main_cst_14_apply, Read.val_main_v11_apply, Read.val_main_cst_5_apply,
    Read.val_main_v10_apply, Read.val_main_v5_apply, Read.val_main_v4_apply, Read.val_main_cst_0_apply,
    Read.val_main_cst_1_apply, Read.val_main_v9_apply, Read.val_main_v8_apply, Read.val_main_cst_4_apply,
    Read.val_main_v43_apply, Read.val_main_v40_apply, Read.val_main_v39_apply, Read.val_main_v38_apply,
    Read.val_main_cst_12_apply, Read.val_main_cst_13_apply, Read.val_main_cst_15_apply,
    v3_eq, v6_eq, v7_eq, v25_eq, v37_eq]
  rfl

/-- Every weakly fair execution of the reference ends with its result at the loss of its inputs, the inputs unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44)
          = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((Read.val_main_v44_eq (F := Ideal) (m ((c.tc : Thread nD τ).loc main_arg0))
        (m ((c.tc : Thread nD τ).loc main_arg1))).trans (funext fun i => by rw [eq_ix0 i]; exact v44_eq _ _)),
      (h c).2⟩)
    (Cert.ReferenceIdeal.Value.run (F := Ideal) m ρ)

end Cert.ReferenceIdeal.RefValue

end
-- ==== Proof.lean ====
/-
  The certificate of a fused segmentation loss: a cross-entropy term, a dice term and a topology term over two
  arrays f32[64, 1, 512, 512] of predictions and targets.

  The kernel walks the predictions and targets in 64 blocks of 2048 rows of 128 lanes and keeps, across the
  blocks, five running totals — Σx, Σt, Σx·t, Σ bce(x, t) and the number of positions at which a run of nonzero
  predictions starts — together with the nonzero flag of the last position seen, which the next block's first
  position needs as its predecessor. After the last block it writes the five totals into one row, and a few host
  operations close the arithmetic. The reference flattens both arrays and takes each total with one reduction,
  counting the run starts with 1-bit flags added up as integers.

  Over the extended reals both results are the one number `Spec.loss` of the two arrays:
    * a sum taken block by block, row by row and lane by lane, each stage from 0, is the sum over the flat
      positions (addition is commutative and associative; no finiteness is asked);
    * the kernel's float count Σ flag·(1 − predecessor's flag) and the reference's integer count of
      "flag and not predecessor's flag" are the same natural number, read as a real;
    * per element both programs apply the same functions (0 − y is −y; log and log(1 + ·) are the same on both
      sides), and the closing arithmetic is the same expression of the five totals.
  The ideal pass rewrote nothing, so `preserves` has no content. The frames of the two kernel programs are the
  generated ones; the reference's frame is its generated run with the result dropped.
-/
import proofs.«151609_j34668976013761_1_alg».proof.Defs
import proofs.«151609_j34668976013761_1_alg».proof.Proof.Gen.Kernel
import proofs.«151609_j34668976013761_1_alg».proof.Proof.Gen.Kernel.Skeleton
import proofs.«151609_j34668976013761_1_alg».proof.Proof.Gen.Kernel.Launch
import proofs.«151609_j34668976013761_1_alg».proof.Proof.Gen.Kernel.Points
import proofs.«151609_j34668976013761_1_alg».proof.Proof.Gen.Kernel.Frame
import proofs.«151609_j34668976013761_1_alg».proof.Proof.Gen.KernelIdeal
import proofs.«151609_j34668976013761_1_alg».proof.Proof.Gen.KernelIdeal.Skeleton
import proofs.«151609_j34668976013761_1_alg».proof.Proof.Gen.KernelIdeal.Launch
import proofs.«151609_j34668976013761_1_alg».proof.Proof.Gen.KernelIdeal.Points
import proofs.«151609_j34668976013761_1_alg».proof.Proof.Gen.KernelIdeal.Frame
import proofs.«151609_j34668976013761_1_alg».proof.Proof.Gen.ReferenceIdeal
import proofs.«151609_j34668976013761_1_alg».proof.Proof.Gen.Pre_finite_inputs
import proofs.«151609_j34668976013761_1_alg».proof.Proof.Gen.ReferenceIdeal.Run
import proofs.«151609_j34668976013761_1_alg».proof.Proof.Gen.ReferenceIdeal.Read
import proofs.«151609_j34668976013761_1_alg».proof.Proof.KernelValue
import proofs.«151609_j34668976013761_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the program's own text read over the extended reals. -/
theorem preserves : Cert.preserves_Kernel_KernelIdeal := trivial

/-- From memories that agree on the two arrays, both programs end at the loss of those arrays. -/
theorem algebraic : Cert.algebraic_KernelIdeal_ReferenceIdeal := by
  intro m ρ m' ρ' _ hagree
  refine ⟨fun c => fun _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Value.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
